-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x800000 : Shape := ⟨2, ![2, 800000]⟩
abbrev S800000 : Shape := ⟨1, ![800000]⟩
abbrev S16x128 : Shape := ⟨2, ![16, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg9 : FVec F S128x3 .f32) (main_arg10 : FVec F S3 .f32) (main_v33 : IVec S_ 1) : IVec S_ 1 :=
  let main_v34 : FVec F S128x3 .f32 := Host.absf main_arg9
  let main_cst_12 : FVec F S_ .f32 := constant S_ .f32 0x7F800000#32
  let main_v35 : FVec F S128x3 .f32 := broadcastInDim S128x3 ![] bcast_S_S128x3 main_cst_12
  let main_v36 : IVec S128x3 1 := cmpf .olt main_v34 main_v35
  let main_c_13 : IVec S_ 1 := constantI S_ 1 1#1
  let main_v37 : IVec S_ 1 := (fun x v => Host.reduce IntOp.andi x v reducesTo_S128x3_S_d0_1 h_S_) main_v36 main_c_13
  let main_v38 : IVec S_ 1 := andi main_v33 main_v37
  let main_v39 : FVec F S3 .f32 := Host.absf main_arg10
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x3 .f32) (main_arg10 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x16 .f32) (main_arg1 : IVec S2x800000 32) (main_arg2 : IVec S800000 32) (main_arg3 : FVec F S16x128 .f32) (main_arg4 : FVec F S128 .f32) (main_arg5 : FVec F S128x128 .f32) (main_arg6 : FVec F S128 .f32) (main_arg7 : FVec F S128x128 .f32) (main_arg8 : FVec F S128 .f32) (main_arg9 : FVec F S128x3 .f32) (main_arg10 : FVec F S3 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x128 .f32 := Host.absf main_arg3
  let main_cst_0 : FVec F S_ .f32 := constant S_ .f32 0x7F800000#32
  let main_v5 : FVec F S16x128 .f32 := broadcastInDim S16x128 ![] bcast_S_S16x128 main_cst_0
  let main_v6 : IVec S16x128 1 := cmpf .olt main_v4 main_v5
  let main_c_1 : IVec S_ 1 := constantI S_ 1 1#1
  let main_v7 : IVec S_ 1 := (fun x v => Host.reduce IntOp.andi x v reducesTo_S16x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x16 : Shape := ⟨2, ![100000, 16]⟩
abbrev S2x800000 : Shape := ⟨2, ![2, 800000]⟩
abbrev S800000 : Shape := ⟨1, ![800000]⟩
abbrev S16x128 : Shape := ⟨2, ![16, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S1x800000 : Shape := ⟨2, ![1, 800000]⟩
abbrev S100000 : Shape := ⟨1, ![100000]⟩
abbrev S900000 : Shape := ⟨1, ![900000]⟩
abbrev S_ : Shape := ⟨0, ![]⟩
abbrev S900000x1 : Shape := ⟨2, ![900000, 1]⟩
abbrev S1x128 : Shape := ⟨2, ![1, 128]⟩
abbrev S100000x128 : Shape := ⟨2, ![100000, 128]⟩
abbrev S5000x16 : Shape := ⟨2, ![5000, 16]⟩
abbrev S5000x128 : Shape := ⟨2, ![5000, 128]⟩
abbrev S900000x128 : Shape := ⟨2, ![900000, 128]⟩
abbrev S1x3 : Shape := ⟨2, ![1, 3]⟩
abbrev S100000x3 : Shape := ⟨2, ![100000, 3]⟩
abbrev S5000x3 : Shape := ⟨2, ![5000, 3]⟩

abbrev nBuf : Space → Nat
  | .hbm => 88
  | .vmem => 24
  | .smem => 0
  | _ => 0

abbrev bufTy : (tb : Table) → Fin (tcTables nBuf tb) → BufTy
  | .hbm, ⟨0, _⟩ => ⟨S100000x16, .f32⟩
  | .hbm, ⟨1, _⟩ => ⟨S2x800000, .i32⟩
  | .hbm, ⟨2, _⟩ => ⟨S800000, .i32⟩
  | .hbm, ⟨3, _⟩ => ⟨S16x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x3, .f32⟩
  | .hbm, ⟨10, _⟩ => ⟨S3, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S100000, .i32⟩
  | .hbm, ⟨16, _⟩ => ⟨S900000, .i32⟩
  | .hbm, ⟨17, _⟩ => ⟨S900000, .i32⟩
  | .hbm, ⟨18, _⟩ => ⟨S_, .f32⟩
  | .hbm, ⟨19, _⟩ => ⟨S900000, .f32⟩
  | .hbm, ⟨20, _⟩ => ⟨S_, .f32⟩
  | .hbm, ⟨21, _⟩ => ⟨S100000, .f32⟩
  | .hbm, ⟨22, _⟩ => ⟨S900000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S900000, .i32⟩
  | .hbm, ⟨30, _⟩ => ⟨S900000, .i1⟩
  | .hbm, ⟨31, _⟩ => ⟨S_, .i32⟩
  | .hbm, ⟨32, _⟩ => ⟨S900000, .i32⟩
  | .hbm, ⟨33, _⟩ => ⟨S900000, .i32⟩
  | .hbm, ⟨34, _⟩ => ⟨S900000, .i32⟩
  | .hbm, ⟨35, _⟩ => ⟨S900000x1, .i32⟩
  | .hbm, ⟨36, _⟩ => ⟨S900000, .f32⟩
  | .hbm, ⟨37, _⟩ => ⟨S_, .i32⟩
  | .hbm, ⟨38, _⟩ => ⟨S900000, .i32⟩
  | .hbm, ⟨39, _⟩ => ⟨S900000, .i1⟩
  | .hbm, ⟨40, _⟩ => ⟨S_, .i32⟩
  | .hbm, ⟨41, _⟩ => ⟨S900000, .i32⟩
  | .hbm, ⟨42, _⟩ => ⟨S900000, .i32⟩
  | .hbm, ⟨43, _⟩ => ⟨S900000, .i32⟩
  | .hbm, ⟨44, _⟩ => ⟨S900000x1, .i32⟩
  | .hbm, ⟨45, _⟩ => ⟨S900000, .f32⟩
  | .hbm, ⟨46, _⟩ => ⟨S900000, .f32⟩
  | .hbm, ⟨47, _⟩ => ⟨S900000x1, .f32⟩
  | .hbm, ⟨48, _⟩ => ⟨S1x128, .f32⟩
  | .hbm, ⟨49, _⟩ => ⟨S100000x128, .bf16⟩
  | .hbm, ⟨50, _⟩ => ⟨S100000x128, .bf16⟩
  | .hbm, ⟨51, _⟩ => ⟨S_, .i32⟩
  | .hbm, ⟨52, _⟩ => ⟨S900000, .i32⟩
  | .hbm, ⟨53, _⟩ => ⟨S900000, .i1⟩
  | .hbm, ⟨54, _⟩ => ⟨S_, .i32⟩
  | .hbm, ⟨55, _⟩ => ⟨S900000, .i32⟩
  | .hbm, ⟨56, _⟩ => ⟨S900000, .i32⟩
  | .hbm, ⟨57, _⟩ => ⟨S900000, .i32⟩
  | .hbm, ⟨58, _⟩ => ⟨S900000x1, .i32⟩
  | .hbm, ⟨59, _⟩ => ⟨S900000x128, .bf16⟩
  | .hbm, ⟨60, _⟩ => ⟨S900000x128, .f32⟩
  | .hbm, ⟨61, _⟩ => ⟨S900000x128, .f32⟩
  | .hbm, ⟨62, _⟩ => ⟨S900000x128, .f32⟩
  | .hbm, ⟨63, _⟩ => ⟨S_, .f32⟩
  | .hbm, ⟨64, _⟩ => ⟨S100000x128, .f32⟩
  | .hbm, ⟨65, _⟩ => ⟨S900000x1, .i32⟩
  | .hbm, ⟨66, _⟩ => ⟨S100000x128, .f32⟩
  | .hbm, ⟨67, _⟩ => ⟨S1x128, .f32⟩
  | .hbm, ⟨68, _⟩ => ⟨S100000x128, .bf16⟩
  | .hbm, ⟨69, _⟩ => ⟨S_, .i32⟩
  | .hbm, ⟨70, _⟩ => ⟨S900000, .i32⟩
  | .hbm, ⟨71, _⟩ => ⟨S900000, .i1⟩
  | .hbm, ⟨72, _⟩ => ⟨S_, .i32⟩
  | .hbm, ⟨73, _⟩ => ⟨S900000, .i32⟩
  | .hbm, ⟨74, _⟩ => ⟨S900000, .i32⟩
  | .hbm, ⟨75, _⟩ => ⟨S900000, .i32⟩
  | .hbm, ⟨76, _⟩ => ⟨S900000x1, .i32⟩
  | .hbm, ⟨77, _⟩ => ⟨S900000x128, .bf16⟩
  | .hbm, ⟨78, _⟩ => ⟨S900000x128, .f32⟩
  | .hbm, ⟨79, _⟩ => ⟨S900000x128, .f32⟩
  | .hbm, ⟨80, _⟩ => ⟨S900000x128, .f32⟩
  | .hbm, ⟨81, _⟩ => ⟨S_, .f32⟩
  | .hbm, ⟨82, _⟩ => ⟨S100000x128, .f32⟩
  | .hbm, ⟨83, _⟩ => ⟨S900000x1, .i32⟩
  | .hbm, ⟨84, _⟩ => ⟨S100000x128, .f32⟩
  | .hbm, ⟨85, _⟩ => ⟨S1x128, .f32⟩
  | .hbm, ⟨86, _⟩ => ⟨S1x3, .f32⟩
  | .hbm, ⟨87, _⟩ => ⟨S100000x3, .f32⟩
  | .local _ .vmem, ⟨0, _⟩ => ⟨S5000x16, .f32⟩
  | .local _ .vmem, ⟨1, _⟩ => ⟨S5000x16, .f32⟩
  | .local _ .vmem, ⟨2, _⟩ => ⟨S16x128, .f32⟩
  | .local _ .vmem, ⟨3, _⟩ => ⟨S1x128, .f32⟩
  | .local _ .vmem, ⟨4, _⟩ => ⟨S5000x128, .bf16⟩
  | .local _ .vmem, ⟨5, _⟩ => ⟨S5000x128, .bf16⟩
  | .local _ .vmem, ⟨6, _⟩ => ⟨S5000x128, .bf16⟩
  | .local _ .vmem, ⟨7, _⟩ => ⟨S5000x128, .bf16⟩
  | .local _ .vmem, ⟨8, _⟩ => ⟨S128x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S5000x128, .bf16⟩
  | .local _ .vmem, ⟨16, _⟩ => ⟨S5000x128, .bf16⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S128x3, .f32⟩
  | .local _ .vmem, ⟨21, _⟩ => ⟨S1x3, .f32⟩
  | .local _ .vmem, ⟨22, _⟩ => ⟨S5000x3, .f32⟩
  | .local _ .vmem, ⟨23, _⟩ => ⟨S5000x3, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x3 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x3 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x3 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  shapeCasts_S128_S1x128 : S128.ShapeCasts S1x128
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  shapeCasts_S3_S1x3 : S3.ShapeCasts S1x3
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S5000x16_S16x128_S5000x128_1_0_0_1_n_n_wf : DotDims.WF S5000x16 S16x128 S5000x128 [1] [0] [0] [1] [] []
  dot_S5000x128_S128x128_S5000x128_1_0_0_1_n_n_wf : DotDims.WF S5000x128 S128x128 S5000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S5000x128_S128x3_S5000x3_1_0_0_1_n_n_wf : DotDims.WF S5000x128 S128x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .bf16 = 32 ∨ (Rect.block (s := S100000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .bf16 = 32 ∨ (Rect.block (s := S100000x128) S5000x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .bf16 = 32 ∨ (Rect.block (s := S100000x128) S5000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x3.size a ≤ S128x3.size a
  hwx3_2 : ∀ i : grid3.Coords, EltTy.bits .f32 = 32 ∨ (Rect.block (s := S128x3) S128x3.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x3.size a ≤ S1x3.size a
  hwx3_3 : ∀ i : grid3.Coords, EltTy.bits .f32 = 32 ∨ (Rect.block (s := S1x3) S1x3.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x3.size a ≤ S100000x3.size a
  hwx3_4 : ∀ i : grid3.Coords, EltTy.bits .f32 = 32 ∨ (Rect.block (s := S100000x3) S5000x3.size (cc3_transform_4 i) (hinb3_4 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x3.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x3.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S5000x3.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x16 : Shape := ⟨2, ![100000, 16]⟩
abbrev S2x800000 : Shape := ⟨2, ![2, 800000]⟩
abbrev S800000 : Shape := ⟨1, ![800000]⟩
abbrev S16x128 : Shape := ⟨2, ![16, 128]⟩
abbrev S128 : Shape := ⟨1, ![128]⟩
abbrev S128x128 : Shape := ⟨2, ![128, 128]⟩
abbrev S128x3 : Shape := ⟨2, ![128, 3]⟩
abbrev S3 : Shape := ⟨1, ![3]⟩
abbrev S100000x128 : Shape := ⟨2, ![100000, 128]⟩
abbrev S1x128 : Shape := ⟨2, ![1, 128]⟩
abbrev S_ : Shape := ⟨0, ![]⟩
abbrev S1x800000 : Shape := ⟨2, ![1, 800000]⟩
abbrev S100000 : Shape := ⟨1, ![100000]⟩
abbrev S900000 : Shape := ⟨1, ![900000]⟩
abbrev S900000x1 : Shape := ⟨2, ![900000, 1]⟩
abbrev S900000x128 : Shape := ⟨2, ![900000, 128]⟩
abbrev S100000x3 : Shape := ⟨2, ![100000, 3]⟩
abbrev S1x3 : Shape := ⟨2, ![1, 3]⟩

abbrev nBuf : Space → Nat
  | .hbm => 135
  | .vmem => 0
  | .smem => 0
  | _ => 0

abbrev hbmTy0_0 (i : Nat) : BufTy := match i % 128 with
  | 0 => ⟨S100000x16, .f32⟩
  | 1 => ⟨S2x800000, .i32⟩
  | 2 => ⟨S800000, .i32⟩
  | 3 => ⟨S16x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x3, .f32⟩
  | 10 => ⟨S3, .f32⟩
  | 11 => ⟨S100000x128, .f32⟩
  | 12 => ⟨S1x128, .f32⟩
  | 13 => ⟨S100000x128, .f32⟩
  | 14 => ⟨S100000x128, .f32⟩
  | 15 => ⟨S_, .f32⟩
  | 16 => ⟨S_, .f32⟩
  | 17 => ⟨S100000x128, .f32⟩
  | 18 => ⟨S100000x128, .i1⟩
  | 19 => ⟨S_, .f32⟩
  | 20 => ⟨S100000x128, .f32⟩
  | 21 => ⟨S100000x128, .f32⟩
  | 22 => ⟨S100000x128, .f32⟩
  | 23 => ⟨S1x800000, .i32⟩
  | 24 => ⟨S800000, .i32⟩
  | 25 => ⟨S1x800000, .i32⟩
  | 26 => ⟨S800000, .i32⟩
  | 27 => ⟨S100000x128, .f32⟩
  | 28 => ⟨S100000, .i32⟩
  | 29 => ⟨S900000, .i32⟩
  | 30 => ⟨S900000, .i32⟩
  | 31 => ⟨S_, .f32⟩
  | 32 => ⟨S900000, .f32⟩
  | 33 => ⟨S_, .f32⟩
  | 34 => ⟨S100000, .f32⟩
  | 35 => ⟨S900000x1, .i32⟩
  | 36 => ⟨S100000, .f32⟩
  | 37 => ⟨S_, .f32⟩
  | 38 => ⟨S100000, .f32⟩
  | 39 => ⟨S100000, .f32⟩
  | 40 => ⟨S100000, .f32⟩
  | 41 => ⟨S_, .i32⟩
  | 42 => ⟨S900000, .i32⟩
  | 43 => ⟨S900000, .i1⟩
  | 44 => ⟨S_, .i32⟩
  | 45 => ⟨S900000, .i32⟩
  | 46 => ⟨S900000, .i32⟩
  | 47 => ⟨S900000, .i32⟩
  | 48 => ⟨S900000x1, .i32⟩
  | 49 => ⟨S900000, .f32⟩
  | 50 => ⟨S_, .i32⟩
  | 51 => ⟨S900000, .i32⟩
  | 52 => ⟨S900000, .i1⟩
  | 53 => ⟨S_, .i32⟩
  | 54 => ⟨S900000, .i32⟩
  | 55 => ⟨S900000, .i32⟩
  | 56 => ⟨S900000, .i32⟩
  | 57 => ⟨S900000x1, .i32⟩
  | 58 => ⟨S900000, .f32⟩
  | 59 => ⟨S900000, .f32⟩
  | 60 => ⟨S_, .i32⟩
  | 61 => ⟨S900000, .i32⟩
  | 62 => ⟨S900000, .i1⟩
  | 63 => ⟨S_, .i32⟩
  | 64 => ⟨S900000, .i32⟩
  | 65 => ⟨S900000, .i32⟩
  | 66 => ⟨S900000, .i32⟩
  | 67 => ⟨S900000x1, .i32⟩
  | 68 => ⟨S900000x128, .f32⟩
  | 69 => ⟨S900000x1, .f32⟩
  | 70 => ⟨S900000x128, .f32⟩
  | 71 => ⟨S900000x128, .f32⟩
  | 72 => ⟨S_, .f32⟩
  | 73 => ⟨S100000x128, .f32⟩
  | 74 => ⟨S900000x1, .i32⟩
  | 75 => ⟨S100000x128, .f32⟩
  | 76 => ⟨S1x128, .f32⟩
  | 77 => ⟨S100000x128, .f32⟩
  | 78 => ⟨S100000x128, .f32⟩
  | 79 => ⟨S100000x128, .f32⟩
  | 80 => ⟨S100000, .i32⟩
  | 81 => ⟨S900000, .i32⟩
  | 82 => ⟨S900000, .i32⟩
  | 83 => ⟨S_, .f32⟩
  | 84 => ⟨S900000, .f32⟩
  | 85 => ⟨S_, .f32⟩
  | 86 => ⟨S100000, .f32⟩
  | 87 => ⟨S900000x1, .i32⟩
  | 88 => ⟨S100000, .f32⟩
  | 89 => ⟨S_, .f32⟩
  | 90 => ⟨S100000, .f32⟩
  | 91 => ⟨S100000, .f32⟩
  | 92 => ⟨S100000, .f32⟩
  | 93 => ⟨S_, .i32⟩
  | 94 => ⟨S900000, .i32⟩
  | 95 => ⟨S900000, .i1⟩
  | 96 => ⟨S_, .i32⟩
  | 97 => ⟨S900000, .i32⟩
  | 98 => ⟨S900000, .i32⟩
  | 99 => ⟨S900000, .i32⟩
  | 100 => ⟨S900000x1, .i32⟩
  | 101 => ⟨S900000, .f32⟩
  | 102 => ⟨S_, .i32⟩
  | 103 => ⟨S900000, .i32⟩
  | 104 => ⟨S900000, .i1⟩
  | 105 => ⟨S_, .i32⟩
  | 106 => ⟨S900000, .i32⟩
  | 107 => ⟨S900000, .i32⟩
  | 108 => ⟨S900000, .i32⟩
  | 109 => ⟨S900000x1, .i32⟩
  | 110 => ⟨S900000, .f32⟩
  | 111 => ⟨S900000, .f32⟩
  | 112 => ⟨S_, .i32⟩
  | 113 => ⟨S900000, .i32⟩
  | 114 => ⟨S900000, .i1⟩
  | 115 => ⟨S_, .i32⟩
  | 116 => ⟨S900000, .i32⟩
  | 117 => ⟨S900000, .i32⟩
  | 118 => ⟨S900000, .i32⟩
  | 119 => ⟨S900000x1, .i32⟩
  | 120 => ⟨S900000x128, .f32⟩
  | 121 => ⟨S900000x1, .f32⟩
  | 122 => ⟨S900000x128, .f32⟩
  | 123 => ⟨S900000x128, .f32⟩
  | 124 => ⟨S_, .f32⟩
  | 125 => ⟨S100000x128, .f32⟩
  | 126 => ⟨S900000x1, .i32⟩
  | 127 => ⟨S100000x128, .f32⟩
  | _ => ⟨S100000x16, .f32⟩

abbrev hbmTy0_1 (i : Nat) : BufTy := match i % 128 with
  | 0 => ⟨S1x128, .f32⟩
  | 1 => ⟨S100000x128, .f32⟩
  | 2 => ⟨S100000x128, .f32⟩
  | 3 => ⟨S100000x3, .f32⟩
  | 4 => ⟨S1x3, .f32⟩
  | 5 => ⟨S100000x3, .f32⟩
  | 6 => ⟨S100000x3, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c : Ref sig .tc := ⟨.hbm, 41, rfl⟩
abbrev main_v20 : Ref sig .tc := ⟨.hbm, 42, rfl⟩
abbrev main_v21 : Ref sig .tc := ⟨.hbm, 43, rfl⟩
abbrev main_c_3 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_4 : Ref sig .tc := ⟨.hbm, 50, rfl⟩
abbrev main_v27 : Ref sig .tc := ⟨.hbm, 51, rfl⟩
abbrev main_v28 : Ref sig .tc := ⟨.hbm, 52, rfl⟩
abbrev main_c_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_6 : Ref sig .tc := ⟨.hbm, 60, rfl⟩
abbrev main_v35 : Ref sig .tc := ⟨.hbm, 61, rfl⟩
abbrev main_v36 : Ref sig .tc := ⟨.hbm, 62, rfl⟩
abbrev main_c_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_9 : Ref sig .tc := ⟨.hbm, 83, rfl⟩
abbrev main_v55 : Ref sig .tc := ⟨.hbm, 84, rfl⟩
abbrev main_cst_10 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_11 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_12 : Ref sig .tc := ⟨.hbm, 93, rfl⟩
abbrev main_v62 : Ref sig .tc := ⟨.hbm, 94, rfl⟩
abbrev main_v63 : Ref sig .tc := ⟨.hbm, 95, rfl⟩
abbrev main_c_13 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_14 : Ref sig .tc := ⟨.hbm, 102, rfl⟩
abbrev main_v69 : Ref sig .tc := ⟨.hbm, 103, rfl⟩
abbrev main_v70 : Ref sig .tc := ⟨.hbm, 104, rfl⟩
abbrev main_c_15 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_16 : Ref sig .tc := ⟨.hbm, 112, rfl⟩
abbrev main_v77 : Ref sig .tc := ⟨.hbm, 113, rfl⟩
abbrev main_v78 : Ref sig .tc := ⟨.hbm, 114, rfl⟩
abbrev main_c_17 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_18 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  dot_S100000x16_S16x128_S100000x128_1_0_0_1_n_n_wf : DotDims.WF S100000x16 S16x128 S100000x128 [1] [0] [0] [1] [] []
  dot_S100000x128_S128x128_S100000x128_1_0_0_1_n_n_wf : DotDims.WF S100000x128 S128x128 S100000x128 [1] [0] [0] [1] [] []
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x3_S100000x3_1_0_0_1_n_n_wf : DotDims.WF S100000x128 S128x3 S100000x3 [1] [0] [0] [1] [] []

variable [Facts₀]

def dot_S100000x16_S16x128_S100000x128_1_0_0_1_n_n : DotDims S100000x16 S16x128 S100000x128 where
  lhsContracting := [1]
  rhsContracting := [0]
  lhsNonContracting := [0]
  rhsNonContracting := [1]
  lhsBatch := []
  rhsBatch := []
  wf := dot_S100000x16_S16x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf

class Facts : Prop extends Facts₀ where

variable [Facts]
-- ==== Proof.KernelStage.lean ====
/-
  The kernel program's host side as named stages, over the printed program's own shapes and records: the edge list
  with one self loop per node (`src`, `dst`: a row of the edge list followed by 0, 1, …, N - 1), a negative node
  number wrapped once by N, the inverse square root of each target's degree (at least 1), each list entry's weight
  as a one-column array, and one aggregation of a hidden array: into each target's row, weight · (source row) summed
  over the list, the hidden array's rows widened from the narrow float format after they are gathered. A bias vector
  enters a kernel region as a one-row matrix.
-/
import proofs.«151104_j3298534884297_1_alg».proof.KernelIdeal

noncomputable section

namespace Cert.KernelIdeal.Stage

open Idealize.ShloMosaic Cert.KernelIdeal Cert.KernelIdeal.Facts₀

variable {F : FTy → Type} [FloatOps F] [Facts]

/-- Row `r` of the edge list followed by every node's own number. -/
def ends (r : Fin 2 → Nat) (hs : S2x800000.Slices r S1x800000) (ei : (⟨S2x800000, .i32⟩ : BufTy).Contents (Elt F)) :
    (⟨S900000, .i32⟩ : BufTy).Contents (Elt F) :=
  concatenate S900000 0 [⟨S800000, shapeCast S800000 (extractStridedSlice S1x800000 r ei hs) shapeCasts_S1x800000_S800000⟩,
    ⟨S100000, iotaInDim S100000 32 0⟩] concatenates_S800000_S100000_S900000_d0

/-- The sources, then the self loops. -/
def src (ei : (⟨S2x800000, .i32⟩ : BufTy).Contents (Elt F)) : (⟨S900000, .i32⟩ : BufTy).Contents (Elt F) :=
  ends ![0, 0] slices_S2x800000_S1x800000_0_0 ei

/-- The targets, then the self loops. -/
def dst (ei : (⟨S2x800000, .i32⟩ : BufTy).Contents (Elt F)) : (⟨S900000, .i32⟩ : BufTy).Contents (Elt F) :=
  ends ![1, 0] slices_S2x800000_S1x800000_1_0 ei

/-- A negative node number wrapped once by N. -/
def wrap (idx : (⟨S900000, .i32⟩ : BufTy).Contents (Elt F)) : (⟨S900000, .i32⟩ : BufTy).Contents (Elt F) :=
  select (cmpi .slt idx (broadcastInDim S900000 ![] bcast_S_S900000 (constantI S_ 32 0#32)))
    (addi idx (broadcastInDim S900000 ![] bcast_S_S900000 (constantI S_ 32 100000#32))) idx

/-- A list of node numbers as a one-column index array. -/
def col (idx : (⟨S900000, .i32⟩ : BufTy).Contents (Elt F)) : (⟨S900000x1, .i32⟩ : BufTy).Contents (Elt F) :=
  broadcastInDim S900000x1 ![0] bcast_S900000_S900000x1_0 idx

/-- The inverse square root of each node's degree, the degree at least 1. -/
def dinv (d : (⟨S900000, .i32⟩ : BufTy).Contents (Elt F)) : (⟨S100000, .f32⟩ : BufTy).Contents (Elt F) :=
  Host.rsqrt (maximumf
    (Host.scatterAdd scatter_S100000_S900000x1_S900000_n_0_0_1
      (broadcastInDim S100000 ![] bcast_S_S100000 (constant S_ .f32 0x00000000#32)) (col d)
      (broadcastInDim S900000 ![] bcast_S_S900000 (constant S_ .f32 0x3F800000#32)))
    (broadcastInDim S100000 ![] bcast_S_S100000 (constant S_ .f32 0x3F800000#32)))

/-- Each list entry's weight, dinv at its source times dinv at its target, as a one-column array. -/
def normCol (s d : (⟨S900000, .i32⟩ : BufTy).Contents (Elt F)) : (⟨S900000x1, .f32⟩ : BufTy).Contents (Elt F) :=
  broadcastInDim S900000x1 ![0] bcast_S900000_S900000x1_0
    (mulf (Host.gather gather_S100000_S900000x1_S900000_n_0_n_n_0_1_1 (dinv d) (col (wrap s)))
      (Host.gather gather_S100000_S900000x1_S900000_n_0_n_n_0_1_1 (dinv d) (col (wrap d))))

/-- One aggregation of a hidden array stored in the narrow format. -/
def agg (h : (⟨S100000x128, .bf16⟩ : BufTy).Contents (Elt F)) (s d : (⟨S900000, .i32⟩ : BufTy).Contents (Elt F))
    (w : (⟨S900000x1, .f32⟩ : BufTy).Contents (Elt F)) : (⟨S100000x128, .f32⟩ : BufTy).Contents (Elt F) :=
  Host.scatterAdd scatter_S100000x128_S900000x1_S900000x128_1_0_0_1
    (broadcastInDim S100000x128 ![] bcast_S_S100000x128 (constant S_ .f32 0x00000000#32)) (col d)
    (mulf (extf .f32 (Host.gather gather_S100000x128_S900000x1_S900000x128_1_0_n_n_0_1_1128 h (col (wrap s))) bitsLt_bf16_f32)
      (broadcastInDim S900000x128 ![0, 1] bcast_S900000x1_S900000x128_0_1 w))

/-- A 128-entry bias as a one-row matrix. -/
def row128 (b : (⟨S128, .f32⟩ : BufTy).Contents (Elt F)) : (⟨S1x128, .f32⟩ : BufTy).Contents (Elt F) :=
  shapeCast S1x128 b shapeCasts_S128_S1x128

/-- The 3-entry output bias as a one-row matrix. -/
def row3 (b : (⟨S3, .f32⟩ : BufTy).Contents (Elt F)) : (⟨S1x3, .f32⟩ : BufTy).Contents (Elt F) :=
  shapeCast S1x3 b shapeCasts_S3_S1x3

end Cert.KernelIdeal.Stage

end
-- ==== Proof.KernelHost.lean ====
/-
  The kernel program's host stretches read back. From an arbitrary contents X of the buffers when a stretch is
  entered: the first stretch leaves the edge list's sources and targets with the self loops, each list entry's
  weight as a column, and the input bias as a row, and passes every argument on; the stretch after the second
  region leaves the first aggregate (of the second region's output) and the first convolution's bias as a row; the
  stretch after the third region leaves the second aggregate (of the third region's output), the second
  convolution's bias as a row and the output bias as a row. A region writes only its output array, so every other
  buffer crosses it unchanged.
-/
import proofs.«151104_j3298534884297_1_alg».proof.Proof.Gen.KernelIdeal.Frame
import proofs.«151104_j3298534884297_1_alg».proof.Proof.KernelStage
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-! ## The first stretch -/

theorem first_src (X : Valuation τ sig (Elt F)) :
    StableHlo.after (hostOps0 : List (HloOp τ sig (Elt F))) X (Proc.devRef .tc main_v5) = Stage.src (X (Proc.devRef .tc main_arg1)) := by
  after_results
  rfl

theorem first_dst (X : Valuation τ sig (Elt F)) :
    StableHlo.after (hostOps0 : List (HloOp τ sig (Elt F))) X (Proc.devRef .tc main_v6) = Stage.dst (X (Proc.devRef .tc main_arg1)) := by
  after_results
  rfl

set_option maxHeartbeats 1000000 in
theorem first_norm (X : Valuation τ sig (Elt F)) :
    StableHlo.after (hostOps0 : List (HloOp τ sig (Elt F))) X (Proc.devRef .tc main_v29)
      = Stage.normCol (Stage.src (X (Proc.devRef .tc main_arg1))) (Stage.dst (X (Proc.devRef .tc main_arg1))) := by
  after_results_simp
  rfl

theorem first_bin (X : Valuation τ sig (Elt F)) :
    StableHlo.after (hostOps0 : List (HloOp τ sig (Elt F))) X (Proc.devRef .tc main_v30) = Stage.row128 (X (Proc.devRef .tc main_arg4)) := by
  after_results
  rfl

theorem first_arg0 (X : Valuation τ sig (Elt F)) : StableHlo.after (hostOps0 : List (HloOp τ sig (Elt F))) X (Proc.devRef .tc main_arg0) = X (Proc.devRef .tc main_arg0) := by
  after_results
theorem first_arg3 (X : Valuation τ sig (Elt F)) : StableHlo.after (hostOps0 : List (HloOp τ sig (Elt F))) X (Proc.devRef .tc main_arg3) = X (Proc.devRef .tc main_arg3) := by
  after_results
theorem first_arg5 (X : Valuation τ sig (Elt F)) : StableHlo.after (hostOps0 : List (HloOp τ sig (Elt F))) X (Proc.devRef .tc main_arg5) = X (Proc.devRef .tc main_arg5) := by
  after_results
theorem first_arg6 (X : Valuation τ sig (Elt F)) : StableHlo.after (hostOps0 : List (HloOp τ sig (Elt F))) X (Proc.devRef .tc main_arg6) = X (Proc.devRef .tc main_arg6) := by
  after_results
theorem first_arg7 (X : Valuation τ sig (Elt F)) : StableHlo.after (hostOps0 : List (HloOp τ sig (Elt F))) X (Proc.devRef .tc main_arg7) = X (Proc.devRef .tc main_arg7) := by
  after_results
theorem first_arg8 (X : Valuation τ sig (Elt F)) : StableHlo.after (hostOps0 : List (HloOp τ sig (Elt F))) X (Proc.devRef .tc main_arg8) = X (Proc.devRef .tc main_arg8) := by
  after_results
theorem first_arg9 (X : Valuation τ sig (Elt F)) : StableHlo.after (hostOps0 : List (HloOp τ sig (Elt F))) X (Proc.devRef .tc main_arg9) = X (Proc.devRef .tc main_arg9) := by
  after_results
theorem first_arg10 (X : Valuation τ sig (Elt F)) : StableHlo.after (hostOps0 : List (HloOp τ sig (Elt F))) X (Proc.devRef .tc main_arg10) = X (Proc.devRef .tc main_arg10) := by
  after_results

/-! ## The stretch after the second region -/

set_option maxHeartbeats 1000000 in
theorem second_agg (X : Valuation τ sig (Elt F)) :
    StableHlo.after (hostOps2 : List (HloOp τ sig (Elt F))) X (Proc.devRef .tc main_v45)
      = Stage.agg (X (Proc.devRef .tc main_v32)) (X (Proc.devRef .tc main_v5)) (X (Proc.devRef .tc main_v6)) (X (Proc.devRef .tc main_v29)) := by
  after_results_simp
  rfl

theorem second_bias (X : Valuation τ sig (Elt F)) :
    StableHlo.after (hostOps2 : List (HloOp τ sig (Elt F))) X (Proc.devRef .tc main_v46) = Stage.row128 (X (Proc.devRef .tc main_arg6)) := by
  after_results
  rfl

theorem second_v5 (X : Valuation τ sig (Elt F)) : StableHlo.after (hostOps2 : List (HloOp τ sig (Elt F))) X (Proc.devRef .tc main_v5) = X (Proc.devRef .tc main_v5) := by
  after_results
theorem second_v6 (X : Valuation τ sig (Elt F)) : StableHlo.after (hostOps2 : List (HloOp τ sig (Elt F))) X (Proc.devRef .tc main_v6) = X (Proc.devRef .tc main_v6) := by
  after_results
theorem second_v29 (X : Valuation τ sig (Elt F)) : StableHlo.after (hostOps2 : List (HloOp τ sig (Elt F))) X (Proc.devRef .tc main_v29) = X (Proc.devRef .tc main_v29) := by
  after_results
theorem second_arg7 (X : Valuation τ sig (Elt F)) : StableHlo.after (hostOps2 : List (HloOp τ sig (Elt F))) X (Proc.devRef .tc main_arg7) = X (Proc.devRef .tc main_arg7) := by
  after_results
theorem second_arg8 (X : Valuation τ sig (Elt F)) : StableHlo.after (hostOps2 : List (HloOp τ sig (Elt F))) X (Proc.devRef .tc main_arg8) = X (Proc.devRef .tc main_arg8) := by
  after_results
theorem second_arg9 (X : Valuation τ sig (Elt F)) : StableHlo.after (hostOps2 : List (HloOp τ sig (Elt F))) X (Proc.devRef .tc main_arg9) = X (Proc.devRef .tc main_arg9) := by
  after_results
theorem second_arg10 (X : Valuation τ sig (Elt F)) : StableHlo.after (hostOps2 : List (HloOp τ sig (Elt F))) X (Proc.devRef .tc main_arg10) = X (Proc.devRef .tc main_arg10) := by
  after_results

/-! ## The stretch after the third region -/

set_option maxHeartbeats 1000000 in
theorem third_agg (X : Valuation τ sig (Elt F)) :
    StableHlo.after (hostOps3 : List (HloOp τ sig (Elt F))) X (Proc.devRef .tc main_v60)
      = Stage.agg (X (Proc.devRef .tc main_v47)) (X (Proc.devRef .tc main_v5)) (X (Proc.devRef .tc main_v6)) (X (Proc.devRef .tc main_v29)) := by
  after_results_simp
  rfl

theorem third_bias (X : Valuation τ sig (Elt F)) :
    StableHlo.after (hostOps3 : List (HloOp τ sig (Elt F))) X (Proc.devRef .tc main_v61) = Stage.row128 (X (Proc.devRef .tc main_arg8)) := by
  after_results
  rfl

theorem third_outBias (X : Valuation τ sig (Elt F)) :
    StableHlo.after (hostOps3 : List (HloOp τ sig (Elt F))) X (Proc.devRef .tc main_v62) = Stage.row3 (X (Proc.devRef .tc main_arg10)) := by
  after_results
  rfl

theorem third_arg9 (X : Valuation τ sig (Elt F)) : StableHlo.after (hostOps3 : List (HloOp τ sig (Elt F))) X (Proc.devRef .tc main_arg9) = X (Proc.devRef .tc main_arg9) := by
  after_results

end Cert.KernelIdeal.Hand

end
-- ==== Proof.KernelBoundary.lean ====
/-
  What each kernel region finds on entry, and what the program's result buffer holds at the end, in terms of the
  launch memory m: the arguments reach every region unchanged (a bias as a one-row matrix); the second region reads the
  first region's output; the third region reads the aggregate of the second region's output; the fourth region reads the
  aggregate of the third region's output; the result buffer ends at the fourth region's output. The edge list's
  sources, targets and weights are computed once, before the first region, and cross the regions and the later
  stretches unchanged.
-/
import proofs.«151104_j3298534884297_1_alg».proof.Proof.KernelHost

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## The first region's entry -/

theorem entry0_feat : V1 m ρ c main_arg0 = m ((c : Thread nD τ).loc main_arg0) := first_arg0 (W0 m ρ c)
theorem entry0_w : V1 m ρ c main_arg3 = m ((c : Thread nD τ).loc main_arg3) := first_arg3 (W0 m ρ c)
theorem entry0_bias : V1 m ρ c main_v30 = Stage.row128 (m ((c : Thread nD τ).loc main_arg4)) := first_bin (W0 m ρ c)

/-! ## The edge list's sources, targets and weights at each later boundary -/

theorem src1 : W1 m ρ c (Proc.devRef .tc main_v5) = Stage.src (m ((c : Thread nD τ).loc main_arg1)) := first_src (W0 m ρ c)
theorem dst1 : W1 m ρ c (Proc.devRef .tc main_v6) = Stage.dst (m ((c : Thread nD τ).loc main_arg1)) := first_dst (W0 m ρ c)
theorem norm1 : W1 m ρ c (Proc.devRef .tc main_v29) = Stage.normCol (Stage.src (m ((c : Thread nD τ).loc main_arg1))) (Stage.dst (m ((c : Thread nD τ).loc main_arg1))) := first_norm (W0 m ρ c)

theorem src3 : W3 m ρ c (Proc.devRef .tc main_v5) = Stage.src (m ((c : Thread nD τ).loc main_arg1)) :=
  (W3_of_ne m ρ c main_v5 (by decide)).trans ((W2_of_ne m ρ c main_v5 (by decide)).trans (src1 m ρ c))
theorem dst3 : W3 m ρ c (Proc.devRef .tc main_v6) = Stage.dst (m ((c : Thread nD τ).loc main_arg1)) :=
  (W3_of_ne m ρ c main_v6 (by decide)).trans ((W2_of_ne m ρ c main_v6 (by decide)).trans (dst1 m ρ c))
theorem norm3 : W3 m ρ c (Proc.devRef .tc main_v29) = Stage.normCol (Stage.src (m ((c : Thread nD τ).loc main_arg1))) (Stage.dst (m ((c : Thread nD τ).loc main_arg1))) :=
  (W3_of_ne m ρ c main_v29 (by decide)).trans ((W2_of_ne m ρ c main_v29 (by decide)).trans (norm1 m ρ c))

theorem src5 : W5 m ρ c (Proc.devRef .tc main_v5) = Stage.src (m ((c : Thread nD τ).loc main_arg1)) :=
  (W5_of_ne m ρ c main_v5 (by decide)).trans ((second_v5 (W3 m ρ c)).trans (src3 m ρ c))
theorem dst5 : W5 m ρ c (Proc.devRef .tc main_v6) = Stage.dst (m ((c : Thread nD τ).loc main_arg1)) :=
  (W5_of_ne m ρ c main_v6 (by decide)).trans ((second_v6 (W3 m ρ c)).trans (dst3 m ρ c))
theorem norm5 : W5 m ρ c (Proc.devRef .tc main_v29) = Stage.normCol (Stage.src (m ((c : Thread nD τ).loc main_arg1))) (Stage.dst (m ((c : Thread nD τ).loc main_arg1))) :=
  (W5_of_ne m ρ c main_v29 (by decide)).trans ((second_v29 (W3 m ρ c)).trans (norm3 m ρ c))

/-! ## An argument at the boundaries it crosses -/

theorem arg5_2 : W2 m ρ c (Proc.devRef .tc main_arg5) = m ((c : Thread nD τ).loc main_arg5) :=
  (W2_of_ne m ρ c main_arg5 (by decide)).trans (first_arg5 (W0 m ρ c))
theorem arg6_3 : W3 m ρ c (Proc.devRef .tc main_arg6) = m ((c : Thread nD τ).loc main_arg6) :=
  (W3_of_ne m ρ c main_arg6 (by decide)).trans ((W2_of_ne m ρ c main_arg6 (by decide)).trans (first_arg6 (W0 m ρ c)))
theorem arg7_3 : W3 m ρ c (Proc.devRef .tc main_arg7) = m ((c : Thread nD τ).loc main_arg7) :=
  (W3_of_ne m ρ c main_arg7 (by decide)).trans ((W2_of_ne m ρ c main_arg7 (by decide)).trans (first_arg7 (W0 m ρ c)))
theorem arg8_3 : W3 m ρ c (Proc.devRef .tc main_arg8) = m ((c : Thread nD τ).loc main_arg8) :=
  (W3_of_ne m ρ c main_arg8 (by decide)).trans ((W2_of_ne m ρ c main_arg8 (by decide)).trans (first_arg8 (W0 m ρ c)))
theorem arg9_3 : W3 m ρ c (Proc.devRef .tc main_arg9) = m ((c : Thread nD τ).loc main_arg9) :=
  (W3_of_ne m ρ c main_arg9 (by decide)).trans ((W2_of_ne m ρ c main_arg9 (by decide)).trans (first_arg9 (W0 m ρ c)))
theorem arg10_3 : W3 m ρ c (Proc.devRef .tc main_arg10) = m ((c : Thread nD τ).loc main_arg10) :=
  (W3_of_ne m ρ c main_arg10 (by decide)).trans ((W2_of_ne m ρ c main_arg10 (by decide)).trans (first_arg10 (W0 m ρ c)))
theorem arg8_5 : W5 m ρ c (Proc.devRef .tc main_arg8) = m ((c : Thread nD τ).loc main_arg8) :=
  (W5_of_ne m ρ c main_arg8 (by decide)).trans ((second_arg8 (W3 m ρ c)).trans (arg8_3 m ρ c))
theorem arg9_5 : W5 m ρ c (Proc.devRef .tc main_arg9) = m ((c : Thread nD τ).loc main_arg9) :=
  (W5_of_ne m ρ c main_arg9 (by decide)).trans ((second_arg9 (W3 m ρ c)).trans (arg9_3 m ρ c))
theorem arg10_5 : W5 m ρ c (Proc.devRef .tc main_arg10) = m ((c : Thread nD τ).loc main_arg10) :=
  (W5_of_ne m ρ c main_arg10 (by decide)).trans ((second_arg10 (W3 m ρ c)).trans (arg10_3 m ρ c))

/-! ## The second region's entry -/

theorem entry1_x : V2 m ρ c main_v31 = (dat0 (V1 m ρ) c).arrAt 3 cfg0.N := W2_arr m ρ c 3
theorem entry1_w : V2 m ρ c main_arg5 = m ((c : Thread nD τ).loc main_arg5) := arg5_2 m ρ c

/-! ## The third region's entry -/

theorem entry2_agg : V4 m ρ c main_v45
    = Stage.agg ((dat1 (V2 m ρ) c).arrAt 2 cfg1.N) (Stage.src (m ((c : Thread nD τ).loc main_arg1))) (Stage.dst (m ((c : Thread nD τ).loc main_arg1))) (Stage.normCol (Stage.src (m ((c : Thread nD τ).loc main_arg1))) (Stage.dst (m ((c : Thread nD τ).loc main_arg1)))) := by
  refine (second_agg (W3 m ρ c)).trans ?_
  rw [src3 m ρ c, dst3 m ρ c, norm3 m ρ c, W3_arr m ρ c 2]
theorem entry2_bias : V4 m ρ c main_v46 = Stage.row128 (m ((c : Thread nD τ).loc main_arg6)) := by
  refine (second_bias (W3 m ρ c)).trans ?_
  rw [arg6_3 m ρ c]
theorem entry2_w : V4 m ρ c main_arg7 = m ((c : Thread nD τ).loc main_arg7) := (second_arg7 (W3 m ρ c)).trans (arg7_3 m ρ c)

/-! ## The fourth region's entry -/

theorem entry3_agg : V6 m ρ c main_v60
    = Stage.agg ((dat2 (V4 m ρ) c).arrAt 3 cfg2.N) (Stage.src (m ((c : Thread nD τ).loc main_arg1))) (Stage.dst (m ((c : Thread nD τ).loc main_arg1))) (Stage.normCol (Stage.src (m ((c : Thread nD τ).loc main_arg1))) (Stage.dst (m ((c : Thread nD τ).loc main_arg1)))) := by
  refine (third_agg (W5 m ρ c)).trans ?_
  rw [src5 m ρ c, dst5 m ρ c, norm5 m ρ c, W5_arr m ρ c 3]
theorem entry3_bias : V6 m ρ c main_v61 = Stage.row128 (m ((c : Thread nD τ).loc main_arg8)) := by
  refine (third_bias (W5 m ρ c)).trans ?_
  rw [arg8_5 m ρ c]
theorem entry3_outBias : V6 m ρ c main_v62 = Stage.row3 (m ((c : Thread nD τ).loc main_arg10)) := by
  refine (third_outBias (W5 m ρ c)).trans ?_
  rw [arg10_5 m ρ c]
theorem entry3_w : V6 m ρ c main_arg9 = m ((c : Thread nD τ).loc main_arg9) := (third_arg9 (W5 m ρ c)).trans (arg9_5 m ρ c)

/-! ## The result buffer at the end -/

theorem result_eq : W7 m ρ c (Proc.devRef .tc main_v63) = (dat3 (V6 m ρ) c).arrAt 4 cfg3.N := W7_arr m ρ c 4

end Cert.KernelIdeal.Hand

end
-- ==== Proof.RegionArrays.lean ====
/-
  The arrays the four kernel regions read and write, each named at its literal type: whatever the float format of the
  buffer, its entries are extended reals. `V` is the contents of every buffer when the region is entered.
  Region 0 reads the features [100000,16], the input weights [16,128] and the input bias as a row [1,128]; region 1
  the hidden features [100000,128] and a weight matrix [128,128]; region 2 an aggregate [100000,128], a bias row and a
  weight matrix; region 3 an aggregate, a bias row, the output weights [128,3] and the output bias row [1,3]. Each
  region's output is the array its write-backs leave after the last of its 20 grid points.
-/
import proofs.«151104_j3298534884297_1_alg».proof.Proof.Gen.KernelIdeal.Frame
import Idealize.ShloMosaic.PureOps.Ideal

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

abbrev feat (c : Dev nD) : S100000x16.Idx → EReal := V c main_arg0
abbrev wIn (c : Dev nD) : S16x128.Idx → EReal := V c main_arg3
abbrev bIn (c : Dev nD) : S1x128.Idx → EReal := V c main_v30
abbrev out0 (c : Dev nD) : S100000x128.Idx → EReal := (dat0 (F := Ideal) V c).arrAt 3 cfg0.N

abbrev x0 (c : Dev nD) : S100000x128.Idx → EReal := V c main_v31
abbrev w1 (c : Dev nD) : S128x128.Idx → EReal := V c main_arg5
abbrev out1 (c : Dev nD) : S100000x128.Idx → EReal := (dat1 (F := Ideal) V c).arrAt 2 cfg1.N

abbrev agg1 (c : Dev nD) : S100000x128.Idx → EReal := V c main_v45
abbrev b1 (c : Dev nD) : S1x128.Idx → EReal := V c main_v46
abbrev w2 (c : Dev nD) : S128x128.Idx → EReal := V c main_arg7
abbrev out2 (c : Dev nD) : S100000x128.Idx → EReal := (dat2 (F := Ideal) V c).arrAt 3 cfg2.N

abbrev agg2 (c : Dev nD) : S100000x128.Idx → EReal := V c main_v60
abbrev b2 (c : Dev nD) : S1x128.Idx → EReal := V c main_v61
abbrev wOut (c : Dev nD) : S128x3.Idx → EReal := V c main_arg9
abbrev bOut (c : Dev nD) : S1x3.Idx → EReal := V c main_v62
abbrev out3 (c : Dev nD) : S100000x3.Idx → EReal := (dat3 (F := Ideal) V c).arrAt 4 cfg3.N

end Cert.KernelIdeal.RegionValue

end
-- ==== Proof.Layers.lean ====
/-
  The leaky rectifier on one extended real: y where y ≥ 0, and the slope — the f32 number nearest 1/100, as its exact
  binary value — times y elsewhere. The comparison and the product are the extended reals' own.
-/
import Idealize.ShloMosaic.PureOps.Ideal
import Idealize.ShloMosaic.Lib.ValueIdx

noncomputable section

namespace Cert.Gcn

open Idealize.ShloMosaic

/-- y ↦ y if y ≥ 0, slope · y otherwise. -/
def lk (y : EReal) : EReal :=
  Scalar.select (FloatOps.cmpf (F := Ideal) (φ := .f32) .oge y (FloatOps.ofBits (F := Ideal) .f32 0x00000000#32)) y
    (FloatOps.ofBits (F := Ideal) .f32 0x3C23D70A#32 * y)

end Cert.Gcn

end
-- ==== Proof.LibPlainDot.lean ====
/-
  A plain matrix product read at an index, on the extended reals.

  For the dimension numbers of an M×K by K×N product (contract the left operand's axis 1 with the right operand's axis 0,
  no batch axis) the vector unit's product into a zero accumulator, and the host's `dot_general`, both hold at (p, q)
  the sum over k of L[p,k] · R[k,q]. When the right operand is a stored [N, K] matrix transposed, the entry is the
  sum over k of L[p,k] · W[q,k]. Generic in the three extents.
-/
import Idealize.ShloMosaic.PureOps.Ideal.Laws
import Idealize.ShloMosaic.Lib.ValueIdx
import Idealize.ShloMosaic.Lib.ValueLayout

noncomputable section

open scoped BigOperators

namespace Cert.PlainDot

open Idealize.ShloMosaic Idealize.ShloMosaic.ValueIdx

variable {M K N : Nat}

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem lhs1 (i : (⟨2, ![M, N]⟩ : Shape).Idx) (q : (DotDims.plain M K N).contr.Idx) :
    ((DotDims.plain M K N).lhsIdx i q 1).val = (q ⟨0, Nat.lt_of_lt_of_eq Nat.one_pos (Eq.symm (rfl : (DotDims.plain M K N).contr.rank = 1))⟩).val :=
  (DotDims.plain M K N).lhsIdx_val_of_single rfl i q

theorem rhs0 (i : (⟨2, ![M, N]⟩ : Shape).Idx) (q : (DotDims.plain M K N).contr.Idx) :
    ((DotDims.plain M K N).rhsIdx i q 0).val = (q ⟨0, Nat.lt_of_lt_of_eq Nat.one_pos (Eq.symm (rfl : (DotDims.plain M K N).contr.rank = 1))⟩).val :=
  (DotDims.plain M K N).rhsIdx_val_of_single rfl i q

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction's sum re-indexed by its one coordinate. -/
theorem sum_contr {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 _ _
      | ⟨1, _⟩ => exact (lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 _ _).trans hk
      | ⟨1, _⟩ => exact rhs1 _ _)
  rw [el, er]

/-- The vector unit's product into the zero accumulator, at (p, q). -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply]
  exact sum_contr L R p q

/-- The host's product, at (p, q). -/
theorem dotGeneral_apply {φ₁ φ₂ : FTy} (prec : Option ContractPrecision) (sched : HostSchedule) (L : FVec Ideal ⟨2, ![M, K]⟩ φ₁)
    (R : FVec Ideal ⟨2, ![K, N]⟩ φ₂) (p : Fin M) (q : Fin N) :
    FloatOps.dotGeneral (DotDims.plain M K N) prec sched L R (ix2 p q) = ∑ k : Fin K, L (ix2 p k) * R (ix2 k q) := by
  rw [Ideal.dotGeneral_apply]
  exact sum_contr L R p q

/-- Against a stored [N, K] matrix transposed: the sum runs over the stored matrix's second coordinate. -/
theorem matmul_zero_transposed_apply {φ₁ φ₂ : FTy} (prec : Option ContractPrecision) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.matmul (DotDims.plain M K N) prec L (transpose ⟨2, ![K, N]⟩ [1, 0] W h) (constant ⟨2, ![M, N]⟩ .f32 0x00000000#32) (ix2 p q)
      = ∑ k : Fin K, L (ix2 p k) * W (ix2 q k) := by
  rw [matmul_zero_apply]
  refine Finset.sum_congr rfl fun k _ => ?_
  rw [transpose_ix2_apply]

theorem dotGeneral_transposed_apply {φ₁ φ₂ : FTy} (prec : Option ContractPrecision) (sched : HostSchedule) (L : FVec Ideal ⟨2, ![M, K]⟩ φ₁)
    (W : FVec Ideal ⟨2, ![N, K]⟩ φ₂) (h : (⟨2, ![N, K]⟩ : Shape).Transposes [1, 0] ⟨2, ![K, N]⟩) (p : Fin M) (q : Fin N) :
    FloatOps.dotGeneral (DotDims.plain M K N) prec sched L (transpose ⟨2, ![K, N]⟩ [1, 0] W h) (ix2 p q)
      = ∑ k : Fin K, L (ix2 p k) * W (ix2 q k) := by
  rw [dotGeneral_apply]
  refine Finset.sum_congr rfl fun k _ => ?_
  rw [transpose_ix2_apply]

end Cert.PlainDot

end
-- ==== Proof.LibRowBias.lean ====
/-
  A bias row read at an index.

  A vector [n] laid out as a one-row matrix [1, n] holds at (0, j) the vector's entry j; and a one-row matrix [1, n]
  broadcast down M rows holds at (p, j) its entry (0, j). The host's form of the two together — a vector [n] broadcast to
  [1, n] and then to [M, n] — holds at (p, j) the vector's entry j. A scalar broadcast to any shape holds the scalar
  everywhere. Generic in the extents and the element type.
-/
import Idealize.ShloMosaic.Lib.Pipeline.Value
import Idealize.ShloMosaic.Lib.ValueIdx

noncomputable section

namespace Cert.RowBias

open Idealize.ShloMosaic Idealize.ShloMosaic.ValueIdx

variable {α : Type} {M n : Nat}

/-- A one-row matrix broadcast down the rows: every row is the one row. -/
theorem rows_apply (v : (⟨2, ![1, n]⟩ : Shape).Idx → α) (hb : (⟨2, ![1, n]⟩ : Shape).Broadcasts ⟨2, ![M, n]⟩) (p : Fin M) (j : Fin n) :
    broadcastTo ⟨2, ![M, n]⟩ v hb (ix2 p j) = v (ix2 (0 : Fin 1) j) :=
  broadcastTo_apply v hb (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega

/-- A vector reshaped to a one-row matrix: the row is the vector. -/
theorem ofVec_apply (b : (⟨1, ![n]⟩ : Shape).Idx → α) (h : (⟨1, ![n]⟩ : Shape).ShapeCasts ⟨2, ![1, n]⟩) (j : Fin n) :
    shapeCast ⟨2, ![1, n]⟩ b h (ix2 (0 : Fin 1) j) = b (ix1 j) :=
  shapeCast_apply b h (ix2 (0 : Fin 1) j) (ix1 j) (by
    rw [Shape.rowMajor_val_one, Shape.rowMajor_val_two]
    show j.val = 0 * n + j.val
    omega)

/-- The host's bias: a vector broadcast to one row and then down the rows. -/
theorem hostRows_apply (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![M, n]⟩ ![0, 1]) (p : Fin M) (j : Fin n) :
    broadcastInDim ⟨2, ![M, n]⟩ ![0, 1] h2 (broadcastInDim ⟨2, ![1, n]⟩ ![1] h1 b) (ix2 p j) = b (ix1 j) :=
  (broadcastInDim_apply ![0, 1] h2 _ (ix2 p j) (ix2 (0 : Fin 1) j) fun a => match a with
    | ⟨0, _⟩ => by show (0 : ℕ) = if (1 : ℕ) = 1 then 0 else _; rw [if_pos rfl]
    | ⟨1, _⟩ => by
        show j.val = if n = 1 then 0 else j.val
        have := j.isLt
        split <;> omega).trans
  (broadcastInDim_apply ![1] h1 b (ix2 (0 : Fin 1) j) (ix1 j) fun a => match a with
    | ⟨0, _⟩ => by
        show j.val = if n = 1 then 0 else j.val
        have := j.isLt
        split <;> omega)

/-- A scalar broadcast to a shape holds the scalar at every index. -/
theorem splat_apply {s : Shape} (x : (⟨0, ![]⟩ : Shape).Idx → α) (h : (⟨0, ![]⟩ : Shape).BroadcastsInDim s ![]) (i : s.Idx) :
    broadcastInDim s ![] h x i = x ix0 :=
  broadcastInDim_apply ![] h x i ix0 fun a => a.elim0

end Cert.RowBias

end
-- ==== Proof.Region01.lean ====
/-
  Regions 0 and 1, entry by entry. Each walks the 100000 rows in 20 blocks of 5000; a block's rows are computed from
  the same rows of the row-blocked input and the whole of the small inputs, so the output array at (p, q) is one
  function of row p of the input and column q of the weights, whatever block p lies in:
    region 0:  lk (Σ_k x[p,k]·W[k,q] + b[0,q])   (16 terms; lk the leaky rectifier)
    region 1:  Σ_k x[p,k]·W[k,q]                  (128 terms)
  Changes of float format are the identity on the extended reals.
-/
import proofs.«151104_j3298534884297_1_alg».proof.Proof.RegionArrays
import proofs.«151104_j3298534884297_1_alg».proof.Proof.Layers
import proofs.«151104_j3298534884297_1_alg».proof.Proof.LibPlainDot
import proofs.«151104_j3298534884297_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-buffer access, as the constant function. -/
theorem zeroOffsets : (![0, 0] : Fin 2 → Nat) = fun _ => 0 := funext fun a => by fin_cases a <;> rfl

/-! ## Region 0: the features times the input weights, plus the bias row, through the leaky rectifier -/

/-- Region 0's payload at (r, q): the leaky rectifier of row r of the block against column q of the weights (16 terms)
    plus the bias row's entry q. -/
theorem pay0_apply (x : Vec Ideal S5000x16 .f32) (w : Vec Ideal S16x128 .f32) (b : Vec Ideal S1x128 .f32) (r : Fin 5000) (q : Fin 128) :
    k0_pay1 x w b (ix2 r q) = Cert.Gcn.lk ((∑ k : Fin 16, x (ix2 r k) * w (ix2 k q)) + b (ix2 (0 : Fin 1) q)) := by
  have hm : FloatOps.matmul (F := Ideal) (DotDims.plain 5000 16 128) none (truncf (F := Ideal) .bf16 x bitsLt_bf16_f32)
      (truncf (F := Ideal) .bf16 w bitsLt_bf16_f32) (constant (F := Ideal) ⟨2, ![5000, 128]⟩ .f32 0x00000000#32) (ix2 r q)
        = ∑ k : Fin 16, x (ix2 r k) * w (ix2 k q) := by
    rw [Cert.PlainDot.matmul_zero_apply]
    rfl
  have hb : broadcastTo S5000x128 (shapeCast S1x128 b shapeCasts_S1x128_S1x128) broadcasts_S1x128_S5000x128 (ix2 r q)
      = b (ix2 (0 : Fin 1) q) := by
    rw [shapeCast_self]
    exact Cert.RowBias.rows_apply b _ r q
  unfold k0_pay1
  show Cert.Gcn.lk (FloatOps.matmul (F := Ideal) (DotDims.plain 5000 16 128) none (truncf (F := Ideal) .bf16 x bitsLt_bf16_f32)
      (truncf (F := Ideal) .bf16 w bitsLt_bf16_f32) (constant (F := Ideal) ⟨2, ![5000, 128]⟩ .f32 0x00000000#32) (ix2 r q)
      + broadcastTo S5000x128 (shapeCast S1x128 b shapeCasts_S1x128_S1x128) broadcasts_S1x128_S5000x128 (ix2 r q)) = _
  rw [hm, hb]

/-- Region 0's whole output array: entry (p, q) is the leaky rectifier of row p of the features against column q of
    the input weights plus the bias row's entry q. -/
def leakyAffine (X : S100000x16.Idx → EReal) (W : S16x128.Idx → EReal) (B : S1x128.Idx → EReal) : S100000x128.Idx → EReal :=
  fun i => Cert.Gcn.lk ((∑ k : Fin 16, X (ix2 (i 0) k) * W (ix2 k (i 1))) + B (ix2 (0 : Fin 1) (i 1)))

theorem leakyAffine_apply (X : S100000x16.Idx → EReal) (W : S16x128.Idx → EReal) (B : S1x128.Idx → EReal) (p : Fin 100000) (q : Fin 128) :
    leakyAffine X W B (ix2 p q) = Cert.Gcn.lk ((∑ k : Fin 16, X (ix2 p k) * W (ix2 k q)) + B (ix2 (0 : Fin 1) q)) := rfl

/-- The block indices over the 20 grid points: at point t the features' and the output's row block is block t, on the
    column axis block 0; the weights and the bias row are block (0, 0). -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r of the features' block at point t is row 5000·t + r of the features. -/
theorem blockRow0 (c : Dev nD) (t : Fin cfg0.N) (r : Fin 5000) (k : Fin 16) (p : Fin 100000) (hp : p.val = t.val * 5000 + r.val) :
    (iblk0 V c 0 t : S5000x16.Idx → EReal) (ix2 r k) = feat V c (ix2 p k) := by
  obtain ⟨e0, e1, -, -, -, -, -, -⟩ := blockIndex0 t
  show V c main_arg0 (((cfg0.win 0).blk t).view.emb (ix2 r k)) = V c main_arg0 (ix2 p k)
  refine congrArg _ (funext fun a => Fin.ext ?_)
  match a with
  | ⟨0, _⟩ => show win0_0.index t (0 : Fin 2) * 5000 + 1 * r.val = p.val; omega
  | ⟨1, _⟩ => show win0_0.index t (1 : Fin 2) * 16 + 1 * k.val = k.val; omega

/-- The input weights' block at any point is the whole matrix. -/
theorem blockWeights0 (c : Dev nD) (t : Fin cfg0.N) (k : Fin 16) (q : Fin 128) :
    (iblk0 V c 1 t : S16x128.Idx → EReal) (ix2 k q) = wIn V c (ix2 k q) := by
  obtain ⟨-, -, e2, e3, -, -, -, -⟩ := blockIndex0 t
  show V c main_arg3 (((cfg0.win 1).blk t).view.emb (ix2 k q)) = V c main_arg3 (ix2 k q)
  refine congrArg _ (funext fun a => Fin.ext ?_)
  match a with
  | ⟨0, _⟩ => show win0_1.index t (0 : Fin 2) * 16 + 1 * k.val = k.val; omega
  | ⟨1, _⟩ => show win0_1.index t (1 : Fin 2) * 128 + 1 * q.val = q.val; omega

/-- The bias row's block at any point is the whole row. -/
theorem blockBias0 (c : Dev nD) (t : Fin cfg0.N) (q : Fin 128) :
    (iblk0 V c 2 t : S1x128.Idx → EReal) (ix2 (0 : Fin 1) q) = bIn V c (ix2 (0 : Fin 1) q) := by
  obtain ⟨-, -, -, -, e4, e5, -, -⟩ := blockIndex0 t
  show V c main_v30 (((cfg0.win 2).blk t).view.emb (ix2 (0 : Fin 1) q)) = V c main_v30 (ix2 (0 : Fin 1) q)
  refine congrArg _ (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 128 + 1 * q.val = q.val; omega

/-- What point t writes back is block t of the rectified affine array. -/
theorem flushed0 (c : Dev nD) (t : Fin cfg0.N) :
    (dat0 (F := Ideal) V c).flushed 3 t
      = ((cfg0.win 3).blk t).view.read (Elt Ideal) (leakyAffine (feat V c) (wIn V c) (bIn V c)) := by
  show (cfg0.win 3).cut (grid0.coords t) ((dat0 (F := Ideal) V c).after 3 t) = _
  rw [after0_3]
  unfold out0_3
  rw [View.canon_unit_zero zeroOffsets]
  simp only [View.ld_unit_zero (S := S5000x16) zeroOffsets, View.ld_unit_zero (S := S16x128) zeroOffsets,
    View.ld_unit_zero (S := S1x128) zeroOffsets]
  obtain ⟨-, -, -, -, -, -, e6, e7⟩ := blockIndex0 t
  funext j
  obtain ⟨r, q, rfl⟩ : ∃ (r : Fin 5000) (q : Fin 128), j = ix2 r q := ⟨j 0, j 1, eq_ix2 j⟩
  have hN : t.val < 20 := Nat.lt_of_lt_of_eq t.isLt N_0
  have hr : r.val < 5000 := r.isLt
  obtain ⟨p, hp⟩ : ∃ p : Fin 100000, p.val = t.val * 5000 + r.val := ⟨⟨t.val * 5000 + r.val, by omega⟩, rfl⟩
  have hi : ((cfg0.win 3).blk t).view.emb (ix2 r q) = (ix2 p q : S100000x128.Idx) := by
    refine funext fun a => Fin.ext ?_
    match a with
    | ⟨0, _⟩ => show win0_3.index t (0 : Fin 2) * 5000 + 1 * r.val = p.val; omega
    | ⟨1, _⟩ => show win0_3.index t (1 : Fin 2) * 128 + 1 * q.val = q.val; omega
  show k0_pay1 (iblk0 V c 0 t) (iblk0 V c 1 t) (iblk0 V c 2 t) (ix2 r q)
    = leakyAffine (feat V c) (wIn V c) (bIn V c) (((cfg0.win 3).blk t).view.emb (ix2 r q))
  rw [hi, leakyAffine_apply]
  refine (pay0_apply _ _ _ r q).trans ?_
  rw [blockBias0 V c t q]
  refine congrArg (fun s => Cert.Gcn.lk (s + bIn V c (ix2 (0 : Fin 1) q))) (Finset.sum_congr rfl fun k _ => ?_)
  rw [blockRow0 V c t r k p hp, blockWeights0 V c t k q]

/-- An index of the output array lies in point t's block iff each coordinate lies in the block's range on its axis. -/
theorem mem_block0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v31).slice (win0_3.rect t)).set ↔ _
  rw [View.set_slice_whole, Rect.mem_set_unit]
  exact Iff.rfl

/-- The 20 row blocks fill the output array: row r lies in the block of point r / 5000. -/
theorem cover0 (i : S100000x128.Idx) : ∃ t : Fin cfg0.N, (cfg0.win 3).flush t = true ∧ i ∈ ((cfg0.win 3).blk t).view.set := by
  have h0 : (i 0).val < 100000 := (i 0).isLt
  have h1 : (i 1).val < 128 := (i 1).isLt
  obtain ⟨t, ht⟩ : ∃ t : Fin cfg0.N, t.val = (i 0).val / 5000 := ⟨⟨(i 0).val / 5000, Nat.lt_of_lt_of_eq (by omega) N_0.symm⟩, rfl⟩
  obtain ⟨-, -, -, -, -, -, e6, e7⟩ := blockIndex0 t
  refine ⟨t, flush0_3 t, ?_⟩
  rw [mem_block0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- Region 0's output array is the rectified affine array. -/
theorem array0 (c : Dev nD) : out0 V c = leakyAffine (feat V c) (wIn V c) (bIn V c) :=
  (dat0 (F := Ideal) V c).arrAt_eq_of_cover 3 (leakyAffine (feat V c) (wIn V c) (bIn V c)) (fun t _ => flushed0 V c t) cover0

theorem region0 (c : Dev nD) (p : Fin 100000) (q : Fin 128) :
    out0 V c (ix2 p q) = Cert.Gcn.lk ((∑ k : Fin 16, feat V c (ix2 p k) * wIn V c (ix2 k q)) + bIn V c (ix2 (0 : Fin 1) q)) :=
  (congrFun (array0 V c) (ix2 p q)).trans (leakyAffine_apply _ _ _ p q)

/-! ## Region 1: the hidden features times a weight matrix -/

/-- Region 1's payload at (r, q): row r of the block against column q of the weights, 128 terms. -/
theorem pay1_apply (x : Vec Ideal S5000x128 .bf16) (w : Vec Ideal S128x128 .f32) (r : Fin 5000) (q : Fin 128) :
    k1_pay1 x w (ix2 r q) = ∑ k : Fin 128, x (ix2 r k) * w (ix2 k q) := by
  unfold k1_pay1
  show FloatOps.matmul (F := Ideal) (DotDims.plain 5000 128 128) none (shapeCast S5000x128 x shapeCasts_S5000x128_S5000x128)
      (truncf (F := Ideal) .bf16 w bitsLt_bf16_f32) (constant (F := Ideal) ⟨2, ![5000, 128]⟩ .f32 0x00000000#32) (ix2 r q) = _
  rw [Cert.PlainDot.matmul_zero_apply, shapeCast_self]
  rfl

/-- Region 1's whole output array: entry (p, q) is row p of the hidden features against column q of the weights. -/
def rowsTimes (X : S100000x128.Idx → EReal) (W : S128x128.Idx → EReal) : S100000x128.Idx → EReal :=
  fun i => ∑ k : Fin 128, X (ix2 (i 0) k) * W (ix2 k (i 1))

theorem rowsTimes_apply (X : S100000x128.Idx → EReal) (W : S128x128.Idx → EReal) (p : Fin 100000) (q : Fin 128) :
    rowsTimes X W (ix2 p q) = ∑ k : Fin 128, X (ix2 p k) * W (ix2 k q) := rfl

/-- The block indices over the 20 grid points: at point t the input's and the output's row block is block t, on the
    column axis block 0; the weights are block (0, 0). -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row r of the input block at point t is row 5000·t + r of the hidden features. -/
theorem blockRow1 (c : Dev nD) (t : Fin cfg1.N) (r : Fin 5000) (k : Fin 128) (p : Fin 100000) (hp : p.val = t.val * 5000 + r.val) :
    (iblk1 V c 0 t : S5000x128.Idx → EReal) (ix2 r k) = x0 V c (ix2 p k) := by
  obtain ⟨e0, e1, -, -, -, -⟩ := blockIndex1 t
  show V c main_v31 (((cfg1.win 0).blk t).view.emb (ix2 r k)) = V c main_v31 (ix2 p k)
  refine congrArg _ (funext fun a => Fin.ext ?_)
  match a with
  | ⟨0, _⟩ => show win1_0.index t (0 : Fin 2) * 5000 + 1 * r.val = p.val; omega
  | ⟨1, _⟩ => show win1_0.index t (1 : Fin 2) * 128 + 1 * k.val = k.val; omega

/-- The weights' block at any point is the whole matrix. -/
theorem blockWeights1 (c : Dev nD) (t : Fin cfg1.N) (k q : Fin 128) :
    (iblk1 V c 1 t : S128x128.Idx → EReal) (ix2 k q) = w1 V c (ix2 k q) := by
  obtain ⟨-, -, e2, e3, -, -⟩ := blockIndex1 t
  show V c main_arg5 (((cfg1.win 1).blk t).view.emb (ix2 k q)) = V c main_arg5 (ix2 k q)
  refine congrArg _ (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- What point t writes back is block t of the product array. -/
theorem flushed1 (c : Dev nD) (t : Fin cfg1.N) :
    (dat1 (F := Ideal) V c).flushed 2 t = ((cfg1.win 2).blk t).view.read (Elt Ideal) (rowsTimes (x0 V c) (w1 V c)) := by
  show (cfg1.win 2).cut (grid1.coords t) ((dat1 (F := Ideal) V c).after 2 t) = _
  rw [after1_2]
  unfold out1_2
  rw [View.canon_unit_zero zeroOffsets]
  simp only [View.ld_unit_zero (S := S5000x128) zeroOffsets, View.ld_unit_zero (S := S128x128) zeroOffsets]
  obtain ⟨-, -, -, -, e4, e5⟩ := blockIndex1 t
  funext j
  obtain ⟨r, q, rfl⟩ : ∃ (r : Fin 5000) (q : Fin 128), j = ix2 r q := ⟨j 0, j 1, eq_ix2 j⟩
  have hN : t.val < 20 := Nat.lt_of_lt_of_eq t.isLt N_1
  have hr : r.val < 5000 := r.isLt
  obtain ⟨p, hp⟩ : ∃ p : Fin 100000, p.val = t.val * 5000 + r.val := ⟨⟨t.val * 5000 + r.val, by omega⟩, rfl⟩
  have hi : ((cfg1.win 2).blk t).view.emb (ix2 r q) = (ix2 p q : S100000x128.Idx) := by
    refine funext fun a => Fin.ext ?_
    match a with
    | ⟨0, _⟩ => show win1_2.index t (0 : Fin 2) * 5000 + 1 * r.val = p.val; omega
    | ⟨1, _⟩ => show win1_2.index t (1 : Fin 2) * 128 + 1 * q.val = q.val; omega
  show k1_pay1 (iblk1 V c 0 t) (iblk1 V c 1 t) (ix2 r q) = rowsTimes (x0 V c) (w1 V c) (((cfg1.win 2).blk t).view.emb (ix2 r q))
  rw [hi, rowsTimes_apply]
  refine (pay1_apply _ _ r q).trans (Finset.sum_congr rfl fun k _ => ?_)
  rw [blockRow1 V c t r k p hp, blockWeights1 V c t k q]

/-- An index of the output array lies in point t's block iff each coordinate lies in the block's range on its axis. -/
theorem mem_block1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v32).slice (win1_2.rect t)).set ↔ _
  rw [View.set_slice_whole, Rect.mem_set_unit]
  exact Iff.rfl

/-- The 20 row blocks fill the output array: row r lies in the block of point r / 5000. -/
theorem cover1 (i : S100000x128.Idx) : ∃ t : Fin cfg1.N, (cfg1.win 2).flush t = true ∧ i ∈ ((cfg1.win 2).blk t).view.set := by
  have h0 : (i 0).val < 100000 := (i 0).isLt
  have h1 : (i 1).val < 128 := (i 1).isLt
  obtain ⟨t, ht⟩ : ∃ t : Fin cfg1.N, t.val = (i 0).val / 5000 := ⟨⟨(i 0).val / 5000, Nat.lt_of_lt_of_eq (by omega) N_1.symm⟩, rfl⟩
  obtain ⟨-, -, -, -, e4, e5⟩ := blockIndex1 t
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- Region 1's output array is the product array. -/
theorem array1 (c : Dev nD) : out1 V c = rowsTimes (x0 V c) (w1 V c) :=
  (dat1 (F := Ideal) V c).arrAt_eq_of_cover 2 (rowsTimes (x0 V c) (w1 V c)) (fun t _ => flushed1 V c t) cover1

theorem region1 (c : Dev nD) (p : Fin 100000) (q : Fin 128) :
    out1 V c (ix2 p q) = ∑ k : Fin 128, x0 V c (ix2 p k) * w1 V c (ix2 k q) :=
  (congrFun (array1 V c) (ix2 p q)).trans (rowsTimes_apply _ _ p q)

end Cert.KernelIdeal.RegionValue

end
-- ==== Proof.Region23.lean ====
/-
  Regions 2 and 3, entry by entry. Each walks the 100000 rows in 20 blocks of 5000; a block's rows are computed from
  the same rows of the row-blocked aggregate and the whole of the small inputs, so the output array at (p, q) is one
  function of row p of the aggregate and column q of the weights, whatever block p lies in:
    region 2:  Σ_k (a[p,k] + b[0,k])·W[k,q]              (128 terms)
    region 3:  Σ_k (a[p,k] + b[0,k])·W[k,q] + c[0,q]     (128 terms, 3 columns)
  Changes of float format are the identity on the extended reals.
-/
import proofs.«151104_j3298534884297_1_alg».proof.Proof.RegionArrays
import proofs.«151104_j3298534884297_1_alg».proof.Proof.Layers
import proofs.«151104_j3298534884297_1_alg».proof.Proof.LibPlainDot
import proofs.«151104_j3298534884297_1_alg».proof.Proof.LibRowBias
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-buffer access, spelt as a function. -/
private theorem zero_offsets : (![0, 0] : Fin 2 → Nat) = fun _ => 0 := funext fun a => by fin_cases a <;> rfl

/-- The body of region 2 at (r, q) of a block: the biased row r against column q of the weights. -/
theorem pay2_apply (x : Vec Ideal S5000x128 .f32) (b : Vec Ideal S1x128 .f32) (w : Vec Ideal S128x128 .f32) (r : Fin 5000) (q : Fin 128) :
    k2_pay1 x b w (ix2 r q) = ∑ k : Fin 128, (x (ix2 r k) + b (ix2 (0 : Fin 1) k)) * w (ix2 k q) := by
  unfold k2_pay1
  refine (Cert.PlainDot.matmul_zero_apply (M := 5000) (K := 128) (N := 128) none _ _ r q).trans ?_
  refine Finset.sum_congr rfl fun k _ => ?_
  rw [truncf_apply, truncf_apply, addf_apply, shapeCast_self, shapeCast_self, Cert.RowBias.rows_apply]

/-! ## Region 2 -/

/-- Region 2's output array as one function of an index: row (i 0) of the aggregate, biased, against column (i 1) of
    the weights. -/
def biasedRowsTimes2 (c : Dev nD) : S100000x128.Idx → EReal := fun i =>
  ∑ k : Fin 128, (agg1 V c (ix2 (i 0) k) + b1 V c (ix2 (0 : Fin 1) k)) * w2 V c (ix2 k (i 1))

theorem biasedRowsTimes2_apply (c : Dev nD) (p : Fin 100000) (q : Fin 128) :
    biasedRowsTimes2 V c (ix2 p q) = ∑ k : Fin 128, (agg1 V c (ix2 p k) + b1 V c (ix2 (0 : Fin 1) k)) * w2 V c (ix2 k q) := rfl

/-- The index maps of region 2 over its 20 points: the aggregate's block and the output's block are both block t of
    the rows, all 128 columns; the bias row and the weights are whole. -/
theorem blockIndex2 : ∀ t : Fin cfg2.N, t.val < 20
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Every one of the 20 row blocks is some point's. -/
theorem blockOnto2 : ∀ b : Fin 20, ∃ t : Fin cfg2.N, win2_3.index t = ![b.val, 0] :=
  (by decide +kernel : ∀ b : Fin 20, ∃ t : Fin grid2.N, win2_3.index t = ![b.val, 0])

/-- Row r of the aggregate's block at point t is row 5000·t + r of the aggregate. -/
theorem read2_0 (c : Dev nD) (t : Fin cfg2.N) (r : Fin 5000) (k : Fin 128) (h : t.val * 5000 + r.val < 100000) :
    (iblk2 V c 0 t (ix2 r k) : EReal) = agg1 V c (ix2 ⟨t.val * 5000 + r.val, h⟩ k) := by
  obtain ⟨-, e0, e1, -⟩ := blockIndex2 t
  show V c main_v45 (((cfg2.win 0).blk t).view.emb (ix2 r k)) = V c main_v45 (ix2 ⟨t.val * 5000 + r.val, h⟩ k)
  refine congrArg _ ?_
  funext a; apply Fin.ext
  match a with
  | ⟨0, _⟩ => show win2_0.index t (0 : Fin 2) * 5000 + 1 * r.val = t.val * 5000 + r.val; omega
  | ⟨1, _⟩ => show win2_0.index t (1 : Fin 2) * 128 + 1 * k.val = k.val; omega

/-- The bias row's block is the bias row. -/
theorem read2_1 (c : Dev nD) (t : Fin cfg2.N) (k : Fin 128) :
    (iblk2 V c 1 t (ix2 (0 : Fin 1) k) : EReal) = b1 V c (ix2 (0 : Fin 1) k) := by
  obtain ⟨-, -, -, e0, e1, -⟩ := blockIndex2 t
  show V c main_v46 (((cfg2.win 1).blk t).view.emb (ix2 (0 : Fin 1) k)) = V c main_v46 (ix2 (0 : Fin 1) k)
  refine congrArg _ ?_
  funext a; apply Fin.ext
  match a with
  | ⟨0, _⟩ => show win2_1.index t (0 : Fin 2) * 1 + 1 * 0 = 0; omega
  | ⟨1, _⟩ => show win2_1.index t (1 : Fin 2) * 128 + 1 * k.val = k.val; omega

/-- The weights' block is the weights. -/
theorem read2_2 (c : Dev nD) (t : Fin cfg2.N) (k : Fin 128) (q : Fin 128) :
    (iblk2 V c 2 t (ix2 k q) : EReal) = w2 V c (ix2 k q) := by
  obtain ⟨-, -, -, -, -, e0, e1, -⟩ := blockIndex2 t
  show V c main_arg7 (((cfg2.win 2).blk t).view.emb (ix2 k q)) = V c main_arg7 (ix2 k q)
  refine congrArg _ ?_
  funext a; apply Fin.ext
  match a with
  | ⟨0, _⟩ => show win2_2.index t (0 : Fin 2) * 128 + 1 * k.val = k.val; omega
  | ⟨1, _⟩ => show win2_2.index t (1 : Fin 2) * 128 + 1 * q.val = q.val; omega

/-- Entry (r, q) of the output's block at point t is entry (5000·t + r, q) of the output array. -/
theorem emb2_3 (t : Fin cfg2.N) (r : Fin 5000) (q : Fin 128) (h : t.val * 5000 + r.val < 100000) :
    (((cfg2.win 3).blk t).view.emb (ix2 r q) : S100000x128.Idx) = ix2 ⟨t.val * 5000 + r.val, h⟩ q := by
  obtain ⟨-, -, -, -, -, -, -, e0, e1⟩ := blockIndex2 t
  funext a; apply Fin.ext
  match a with
  | ⟨0, _⟩ => show win2_3.index t (0 : Fin 2) * 5000 + 1 * r.val = t.val * 5000 + r.val; omega
  | ⟨1, _⟩ => show win2_3.index t (1 : Fin 2) * 128 + 1 * q.val = q.val; omega

/-- What point t writes back is block t of that function. -/
theorem flushed2_eq (c : Dev nD) (t : Fin cfg2.N) :
    (dat2 (F := Ideal) V c).flushed 3 t = ((cfg2.win 3).blk t).view.read (Elt Ideal) (biasedRowsTimes2 V c) := by
  show (cfg2.win 3).cut (grid2.coords t) ((dat2 V c).after 3 t) = _
  rw [after2_3]
  unfold out2_3
  rw [View.canon_unit_zero zero_offsets]
  simp only [View.ld_unit_zero (S := S5000x128) zero_offsets, View.ld_unit_zero (S := S1x128) zero_offsets,
    View.ld_unit_zero (S := S128x128) zero_offsets]
  funext j
  obtain ⟨r, q, rfl⟩ : ∃ (r : Fin 5000) (q : Fin 128), j = ix2 r q := ⟨j 0, j 1, eq_ix2 j⟩
  have ht : t.val < 20 := (blockIndex2 t).1
  have hr : t.val * 5000 + r.val < 100000 := by have := r.isLt; omega
  refine (pay2_apply (iblk2 V c 0 t) (iblk2 V c 1 t) (iblk2 V c 2 t) r q).trans ?_
  show _ = biasedRowsTimes2 V c (((cfg2.win 3).blk t).view.emb (ix2 r q))
  rw [emb2_3 t r q hr, biasedRowsTimes2_apply]
  refine Finset.sum_congr rfl fun k _ => ?_
  exact congrArg₂ (· * ·) (congrArg₂ (· + ·) (read2_0 V c t r k hr) (read2_1 V c t k)) (read2_2 V c t k q)

/-- An index of the output array is in point t's block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v47).slice (win2_3.rect t)).set ↔ _
  rw [View.set_slice_whole, Rect.mem_set_unit]
  exact Iff.rfl

/-- The 20 blocks tile the 100000 rows: row r lies in block r / 5000. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := blockOnto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- Region 2's output array is that function. -/
theorem out2_eq (c : Dev nD) : out2 V c = biasedRowsTimes2 V c :=
  (dat2 (F := Ideal) V c).arrAt_eq_of_cover 3 (biasedRowsTimes2 V c) (fun t _ => flushed2_eq V c t) (fun i => cover2 i)

theorem region2 (c : Dev nD) (p : Fin 100000) (q : Fin 128) :
    out2 V c (ix2 p q) = ∑ k : Fin 128, (agg1 V c (ix2 p k) + b1 V c (ix2 (0 : Fin 1) k)) * w2 V c (ix2 k q) :=
  (congrFun (out2_eq V c) (ix2 p q)).trans (biasedRowsTimes2_apply V c p q)

/-! ## Region 3 -/

/-- The body of region 3 at (r, q) of a block: the biased row r against column q of the output weights, plus the
    output bias at q. -/
theorem pay3_apply (x : Vec Ideal S5000x128 .f32) (b : Vec Ideal S1x128 .f32) (w : Vec Ideal S128x3 .f32) (o : Vec Ideal S1x3 .f32)
    (r : Fin 5000) (q : Fin 3) :
    k3_pay1 x b w o (ix2 r q)
      = (∑ k : Fin 128, (x (ix2 r k) + b (ix2 (0 : Fin 1) k)) * w (ix2 k q)) + o (ix2 (0 : Fin 1) q) := by
  unfold k3_pay1
  show FloatOps.matmul (F := Ideal) (DotDims.plain 5000 128 3) none _ _ (constant ⟨2, ![5000, 3]⟩ .f32 0x00000000#32) (ix2 r q)
      + broadcastTo S5000x3 (shapeCast S1x3 o shapeCasts_S1x3_S1x3) broadcasts_S1x3_S5000x3 (ix2 r q) = _
  refine congrArg₂ (· + ·) ((Cert.PlainDot.matmul_zero_apply none _ _ r q).trans (Finset.sum_congr rfl fun k _ => ?_)) ?_
  · rw [truncf_apply, truncf_apply, addf_apply, shapeCast_self, shapeCast_self, Cert.RowBias.rows_apply]
  · rw [shapeCast_self, Cert.RowBias.rows_apply]

/-- Region 3's output array as one function of an index: row (i 0) of the aggregate, biased, against column (i 1) of
    the output weights, plus the output bias at (i 1). -/
def biasedRowsTimes3 (c : Dev nD) : S100000x3.Idx → EReal := fun i =>
  (∑ k : Fin 128, (agg2 V c (ix2 (i 0) k) + b2 V c (ix2 (0 : Fin 1) k)) * wOut V c (ix2 k (i 1))) + bOut V c (ix2 (0 : Fin 1) (i 1))

theorem biasedRowsTimes3_apply (c : Dev nD) (p : Fin 100000) (q : Fin 3) :
    biasedRowsTimes3 V c (ix2 p q)
      = (∑ k : Fin 128, (agg2 V c (ix2 p k) + b2 V c (ix2 (0 : Fin 1) k)) * wOut V c (ix2 k q)) + bOut V c (ix2 (0 : Fin 1) q) := rfl

/-- The index maps of region 3 over its 20 points: the aggregate's block and the output's block are both block t of
    the rows, all their columns; the two bias rows and the weights are whole. -/
theorem blockIndex3 : ∀ t : Fin cfg3.N, t.val < 20
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Every one of the 20 row blocks is some point's. -/
theorem blockOnto3 : ∀ b : Fin 20, ∃ t : Fin cfg3.N, win3_4.index t = ![b.val, 0] :=
  (by decide +kernel : ∀ b : Fin 20, ∃ t : Fin grid3.N, win3_4.index t = ![b.val, 0])

/-- Row r of the aggregate's block at point t is row 5000·t + r of the aggregate. -/
theorem read3_0 (c : Dev nD) (t : Fin cfg3.N) (r : Fin 5000) (k : Fin 128) (h : t.val * 5000 + r.val < 100000) :
    (iblk3 V c 0 t (ix2 r k) : EReal) = agg2 V c (ix2 ⟨t.val * 5000 + r.val, h⟩ k) := by
  obtain ⟨-, e0, e1, -⟩ := blockIndex3 t
  show V c main_v60 (((cfg3.win 0).blk t).view.emb (ix2 r k)) = V c main_v60 (ix2 ⟨t.val * 5000 + r.val, h⟩ k)
  refine congrArg _ ?_
  funext a; apply Fin.ext
  match a with
  | ⟨0, _⟩ => show win3_0.index t (0 : Fin 2) * 5000 + 1 * r.val = t.val * 5000 + r.val; omega
  | ⟨1, _⟩ => show win3_0.index t (1 : Fin 2) * 128 + 1 * k.val = k.val; omega

/-- The bias row's block is the bias row. -/
theorem read3_1 (c : Dev nD) (t : Fin cfg3.N) (k : Fin 128) :
    (iblk3 V c 1 t (ix2 (0 : Fin 1) k) : EReal) = b2 V c (ix2 (0 : Fin 1) k) := by
  obtain ⟨-, -, -, e0, e1, -⟩ := blockIndex3 t
  show V c main_v61 (((cfg3.win 1).blk t).view.emb (ix2 (0 : Fin 1) k)) = V c main_v61 (ix2 (0 : Fin 1) k)
  refine congrArg _ ?_
  funext a; apply Fin.ext
  match a with
  | ⟨0, _⟩ => show win3_1.index t (0 : Fin 2) * 1 + 1 * 0 = 0; omega
  | ⟨1, _⟩ => show win3_1.index t (1 : Fin 2) * 128 + 1 * k.val = k.val; omega

/-- The output weights' block is the output weights. -/
theorem read3_2 (c : Dev nD) (t : Fin cfg3.N) (k : Fin 128) (q : Fin 3) :
    (iblk3 V c 2 t (ix2 k q) : EReal) = wOut V c (ix2 k q) := by
  obtain ⟨-, -, -, -, -, e0, e1, -⟩ := blockIndex3 t
  show V c main_arg9 (((cfg3.win 2).blk t).view.emb (ix2 k q)) = V c main_arg9 (ix2 k q)
  refine congrArg _ ?_
  funext a; apply Fin.ext
  match a with
  | ⟨0, _⟩ => show win3_2.index t (0 : Fin 2) * 128 + 1 * k.val = k.val; omega
  | ⟨1, _⟩ => show win3_2.index t (1 : Fin 2) * 3 + 1 * q.val = q.val; omega

/-- The output bias row's block is the output bias row. -/
theorem read3_3 (c : Dev nD) (t : Fin cfg3.N) (q : Fin 3) :
    (iblk3 V c 3 t (ix2 (0 : Fin 1) q) : EReal) = bOut V c (ix2 (0 : Fin 1) q) := by
  obtain ⟨-, -, -, -, -, -, -, e0, e1, -⟩ := blockIndex3 t
  show V c main_v62 (((cfg3.win 3).blk t).view.emb (ix2 (0 : Fin 1) q)) = V c main_v62 (ix2 (0 : Fin 1) q)
  refine congrArg _ ?_
  funext a; apply Fin.ext
  match a with
  | ⟨0, _⟩ => show win3_3.index t (0 : Fin 2) * 1 + 1 * 0 = 0; omega
  | ⟨1, _⟩ => show win3_3.index t (1 : Fin 2) * 3 + 1 * q.val = q.val; omega

/-- Entry (r, q) of the output's block at point t is entry (5000·t + r, q) of the output array. -/
theorem emb3_4 (t : Fin cfg3.N) (r : Fin 5000) (q : Fin 3) (h : t.val * 5000 + r.val < 100000) :
    (((cfg3.win 4).blk t).view.emb (ix2 r q) : S100000x3.Idx) = ix2 ⟨t.val * 5000 + r.val, h⟩ q := by
  obtain ⟨-, -, -, -, -, -, -, -, -, e0, e1⟩ := blockIndex3 t
  funext a; apply Fin.ext
  match a with
  | ⟨0, _⟩ => show win3_4.index t (0 : Fin 2) * 5000 + 1 * r.val = t.val * 5000 + r.val; omega
  | ⟨1, _⟩ => show win3_4.index t (1 : Fin 2) * 3 + 1 * q.val = q.val; omega

/-- What point t writes back is block t of that function. -/
theorem flushed3_eq (c : Dev nD) (t : Fin cfg3.N) :
    (dat3 (F := Ideal) V c).flushed 4 t = ((cfg3.win 4).blk t).view.read (Elt Ideal) (biasedRowsTimes3 V c) := by
  show (cfg3.win 4).cut (grid3.coords t) ((dat3 V c).after 4 t) = _
  rw [after3_4]
  unfold out3_4
  rw [View.canon_unit_zero zero_offsets]
  simp only [View.ld_unit_zero (S := S5000x128) zero_offsets, View.ld_unit_zero (S := S1x128) zero_offsets,
    View.ld_unit_zero (S := S128x3) zero_offsets, View.ld_unit_zero (S := S1x3) zero_offsets]
  funext j
  obtain ⟨r, q, rfl⟩ : ∃ (r : Fin 5000) (q : Fin 3), j = ix2 r q := ⟨j 0, j 1, eq_ix2 j⟩
  have ht : t.val < 20 := (blockIndex3 t).1
  have hr : t.val * 5000 + r.val < 100000 := by have := r.isLt; omega
  refine (pay3_apply (iblk3 V c 0 t) (iblk3 V c 1 t) (iblk3 V c 2 t) (iblk3 V c 3 t) r q).trans ?_
  show _ = biasedRowsTimes3 V c (((cfg3.win 4).blk t).view.emb (ix2 r q))
  rw [emb3_4 t r q hr, biasedRowsTimes3_apply]
  refine congrArg₂ (· + ·) (Finset.sum_congr rfl fun k _ => ?_) (read3_3 V c t q)
  exact congrArg₂ (· * ·) (congrArg₂ (· + ·) (read3_0 V c t r k hr) (read3_1 V c t k)) (read3_2 V c t k q)

/-- An index of the output array is in point t's block iff each coordinate is in the block's range on its axis. -/
theorem mem_blk3 (t : Fin cfg3.N) (i : S100000x3.Idx) :
    i ∈ ((cfg3.win 4).blk t).view.set ↔ ∀ a : Fin 2, win3_4.index t a * S5000x3.size a ≤ (i a).val ∧ (i a).val < win3_4.index t a * S5000x3.size a + S5000x3.size a := by
  show i ∈ ((View.whole main_v63).slice (win3_4.rect t)).set ↔ _
  rw [View.set_slice_whole, Rect.mem_set_unit]
  exact Iff.rfl

/-- The 20 blocks tile the 100000 rows: row r lies in block r / 5000. -/
theorem cover3 (i : S100000x3.Idx) :
    ∃ t : Fin cfg3.N, (cfg3.win 4).flush t = true ∧ i ∈ ((cfg3.win 4).blk t).view.set := by
  have hi0 : (i 0).val < 100000 := (i 0).isLt
  have hi1 : (i 1).val < 3 := (i 1).isLt
  obtain ⟨t, ht⟩ := blockOnto3 ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 3 ≤ (i 1).val ∧ (i 1).val < win3_4.index t (1 : Fin 2) * 3 + 3; omega

/-- Region 3's output array is that function. -/
theorem out3_eq (c : Dev nD) : out3 V c = biasedRowsTimes3 V c :=
  (dat3 (F := Ideal) V c).arrAt_eq_of_cover 4 (biasedRowsTimes3 V c) (fun t _ => flushed3_eq V c t) (fun i => cover3 i)

theorem region3 (c : Dev nD) (p : Fin 100000) (q : Fin 3) :
    out3 V c (ix2 p q)
      = (∑ k : Fin 128, (agg2 V c (ix2 p k) + b2 V c (ix2 (0 : Fin 1) k)) * wOut V c (ix2 k q)) + bOut V c (ix2 (0 : Fin 1) q) :=
  (congrFun (out3_eq V c) (ix2 p q)).trans (biasedRowsTimes3_apply V c p q)

end Cert.KernelIdeal.RegionValue

end
-- ==== Proof.RefStage.lean ====
/-
  The reference's computation as named stages, over the printed program's own shapes and records.

  A graph convolution network on N = 100000 nodes and E = 800000 directed edges. The edge list is extended by one
  self loop per node: `ends r` is row r of the edge list followed by 0, 1, …, N - 1 (r = 0 the sources, r = 1 the
  targets), 900000 entries. A target's degree is the number of list entries naming it; `dinv` is the inverse square
  root of the degree (at least 1); an entry's weight `norm` is dinv[source] · dinv[target], the source and the target read
  with negative numbers wrapped once by N, as array indexing wraps them. One aggregation `agg h` adds, into each
  target's row (the target number taken raw), weight · h[source row] over the entries. A convolution layer is
  `agg (x · W) + b`; the network is a dense layer with a leaky rectifier (slope the f32 nearest 1/100), two convolution layers,
  and a dense output layer.
-/
import proofs.«151104_j3298534884297_1_alg».proof.ReferenceIdeal

noncomputable section

namespace Cert.ReferenceIdeal.Stage

open Idealize.ShloMosaic Cert.ReferenceIdeal Cert.ReferenceIdeal.Facts₀

variable {F : FTy → Type} [FloatOps F] [Facts]

/-- Row `r` of the edge list followed by every node's own number. -/
def ends (r : Fin 2 → Nat) (hs : S2x800000.Slices r S1x800000) (ei : (⟨S2x800000, .i32⟩ : BufTy).Contents (Elt F)) :
    (⟨S900000, .i32⟩ : BufTy).Contents (Elt F) :=
  concatenate S900000 0 [⟨S800000, shapeCast S800000 (extractStridedSlice S1x800000 r ei hs) shapeCasts_S1x800000_S800000⟩,
    ⟨S100000, iotaInDim S100000 32 0⟩] concatenates_S800000_S100000_S900000_d0

/-- The sources, then the self loops. -/
def src (ei : (⟨S2x800000, .i32⟩ : BufTy).Contents (Elt F)) : (⟨S900000, .i32⟩ : BufTy).Contents (Elt F) :=
  ends ![0, 0] slices_S2x800000_S1x800000_0_0 ei

/-- The targets, then the self loops. -/
def dst (ei : (⟨S2x800000, .i32⟩ : BufTy).Contents (Elt F)) : (⟨S900000, .i32⟩ : BufTy).Contents (Elt F) :=
  ends ![1, 0] slices_S2x800000_S1x800000_1_0 ei

/-- A negative node number wrapped once by N. -/
def wrap (idx : (⟨S900000, .i32⟩ : BufTy).Contents (Elt F)) : (⟨S900000, .i32⟩ : BufTy).Contents (Elt F) :=
  select (cmpi .slt idx (broadcastInDim S900000 ![] bcast_S_S900000 (constantI S_ 32 0#32)))
    (addi idx (broadcastInDim S900000 ![] bcast_S_S900000 (constantI S_ 32 100000#32))) idx

/-- A list of node numbers as a one-column index array. -/
def col (idx : (⟨S900000, .i32⟩ : BufTy).Contents (Elt F)) : (⟨S900000x1, .i32⟩ : BufTy).Contents (Elt F) :=
  broadcastInDim S900000x1 ![0] bcast_S900000_S900000x1_0 idx

/-- The inverse square root of each node's degree, the degree at least 1. -/
def dinv (d : (⟨S900000, .i32⟩ : BufTy).Contents (Elt F)) : (⟨S100000, .f32⟩ : BufTy).Contents (Elt F) :=
  Host.rsqrt (maximumf
    (Host.scatterAdd scatter_S100000_S900000x1_S900000_n_0_0_1
      (broadcastInDim S100000 ![] bcast_S_S100000 (constant S_ .f32 0x00000000#32)) (col d)
      (broadcastInDim S900000 ![] bcast_S_S900000 (constant S_ .f32 0x3F800000#32)))
    (broadcastInDim S100000 ![] bcast_S_S100000 (constant S_ .f32 0x3F800000#32)))

/-- Each list entry's weight: dinv at its source times dinv at its target. -/
def norm (s d : (⟨S900000, .i32⟩ : BufTy).Contents (Elt F)) : (⟨S900000, .f32⟩ : BufTy).Contents (Elt F) :=
  mulf (Host.gather gather_S100000_S900000x1_S900000_n_0_n_n_0_1_1 (dinv d) (col (wrap s)))
    (Host.gather gather_S100000_S900000x1_S900000_n_0_n_n_0_1_1 (dinv d) (col (wrap d)))

/-- One aggregation: into each target's row, the weighted source rows of `h` summed over the list. -/
def agg (h : (⟨S100000x128, .f32⟩ : BufTy).Contents (Elt F)) (s d : (⟨S900000, .i32⟩ : BufTy).Contents (Elt F)) :
    (⟨S100000x128, .f32⟩ : BufTy).Contents (Elt F) :=
  Host.scatterAdd scatter_S100000x128_S900000x1_S900000x128_1_0_0_1
    (broadcastInDim S100000x128 ![] bcast_S_S100000x128 (constant S_ .f32 0x00000000#32)) (col d)
    (mulf (Host.gather gather_S100000x128_S900000x1_S900000x128_1_0_n_n_0_1_1128 h (col (wrap s)))
      (broadcastInDim S900000x128 ![0, 1] bcast_S900000x1_S900000x128_0_1
        (broadcastInDim S900000x1 ![0] bcast_S900000_S900000x1_0 (norm s d))))

/-- A bias vector of 128 entries laid down every row. -/
def bias (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)

/-- The leaky rectifier: y where y ≥ 0, slope · y elsewhere. -/
def leaky (y : (⟨S100000x128, .f32⟩ : BufTy).Contents (Elt F)) : (⟨S100000x128, .f32⟩ : BufTy).Contents (Elt F) :=
  select (cmpf .oge y (broadcastInDim S100000x128 ![] bcast_S_S100000x128 (constant S_ .f32 0x00000000#32))) y
    (mulf (broadcastInDim S100000x128 ![] bcast_S_S100000x128 (id (constant S_ .f32 0x3C23D70A#32))) y)

/-- The input layer. -/
def lin0 (x : (⟨S100000x16, .f32⟩ : BufTy).Contents (Elt F)) (W : (⟨S16x128, .f32⟩ : BufTy).Contents (Elt F))
    (b : (⟨S128, .f32⟩ : BufTy).Contents (Elt F)) : (⟨S100000x128, .f32⟩ : BufTy).Contents (Elt F) :=
  leaky (addf (Host.dotGeneral dot_S100000x16_S16x128_S100000x128_1_0_0_1_n_n none x W) (bias b))

/-- One convolution layer. -/
def conv (x : (⟨S100000x128, .f32⟩ : BufTy).Contents (Elt F)) (W : (⟨S128x128, .f32⟩ : BufTy).Contents (Elt F))
    (b : (⟨S128, .f32⟩ : BufTy).Contents (Elt F)) (s d : (⟨S900000, .i32⟩ : BufTy).Contents (Elt F)) :
    (⟨S100000x128, .f32⟩ : BufTy).Contents (Elt F) :=
  addf (agg (Host.dotGeneral dot_S100000x128_S128x128_S100000x128_1_0_0_1_n_n none x W) s d) (bias b)

/-- The output layer. -/
def head (x : (⟨S100000x128, .f32⟩ : BufTy).Contents (Elt F)) (W : (⟨S128x3, .f32⟩ : BufTy).Contents (Elt F))
    (b : (⟨S3, .f32⟩ : BufTy).Contents (Elt F)) : (⟨S100000x3, .f32⟩ : BufTy).Contents (Elt F) :=
  addf (Host.dotGeneral dot_S100000x128_S128x3_S100000x3_1_0_0_1_n_n none x W)
    (broadcastInDim S100000x3 ![0, 1] bcast_S1x3_S100000x3_0_1 (broadcastInDim S1x3 ![1] bcast_S3_S1x3_1 b))

/-- The whole network. -/
def out (x : (⟨S100000x16, .f32⟩ : BufTy).Contents (Elt F)) (ei : (⟨S2x800000, .i32⟩ : BufTy).Contents (Elt F))
    (Win : (⟨S16x128, .f32⟩ : BufTy).Contents (Elt F)) (bin : (⟨S128, .f32⟩ : BufTy).Contents (Elt F))
    (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F))
    (Wout : (⟨S128x3, .f32⟩ : BufTy).Contents (Elt F)) (bout : (⟨S3, .f32⟩ : BufTy).Contents (Elt F)) :
    (⟨S100000x3, .f32⟩ : BufTy).Contents (Elt F) :=
  head (conv (conv (lin0 x Win bin) W1 b1 (src ei) (dst ei)) W2 b2 (src ei) (dst ei)) Wout bout

end Cert.ReferenceIdeal.Stage

end
-- ==== Proof.RefLayers.lean ====
/-
  The reference's dense layers read at an entry, on the extended reals. With x an [100000, K] array, W a [K, n] matrix
  and b a vector of n entries:
    the input layer at (p, q) is lk (Σ_k x[p,k]·W[k,q] + b[q]);
    a product at (p, q) is Σ_k x[p,k]·W[k,q];
    a convolution layer at (p, q) is the aggregate of the product at (p, q), plus b[q];
    the output layer at (p, q) is Σ_k x[p,k]·W[k,q] + b[q].
  A bias vector broadcast to one row and down the rows holds b[q] in column q.
-/
import proofs.«151104_j3298534884297_1_alg».proof.Proof.Gen.ReferenceIdeal
import proofs.«151104_j3298534884297_1_alg».proof.Proof.RefStage
import proofs.«151104_j3298534884297_1_alg».proof.Proof.Layers
import proofs.«151104_j3298534884297_1_alg».proof.Proof.LibPlainDot
import proofs.«151104_j3298534884297_1_alg».proof.Proof.LibRowBias
import Idealize.ShloMosaic.Lib.ValueIdx
import Idealize.ShloMosaic.PureOps.Ideal.Laws

noncomputable section

open scoped BigOperators

namespace Cert.ReferenceIdeal.Layers

open Cert.ReferenceIdeal Cert.ReferenceIdeal.Facts₀ Idealize.ShloMosaic Idealize.ShloMosaic.ValueIdx

/-- The 128-entry bias laid down the rows, at (p, q). -/
theorem bias_apply (b : S128.Idx → EReal) (p : Fin 100000) (q : Fin 128) :
    Stage.bias (F := Ideal) b (ix2 p q) = b (ix1 q) :=
  Cert.RowBias.hostRows_apply b bcast_S128_S1x128_1 bcast_S1x128_S100000x128_0_1 p q

/-- A [100000,128] by [128,128] product at (p, q). -/
theorem dot128_apply (x : S100000x128.Idx → EReal) (W : S128x128.Idx → EReal) (p : Fin 100000) (q : Fin 128) :
    Host.dotGeneral (F := Ideal) (φ₁ := .f32) (φ₂ := .f32) dot_S100000x128_S128x128_S100000x128_1_0_0_1_n_n none x W (ix2 p q)
      = ∑ k : Fin 128, x (ix2 p k) * W (ix2 k q) :=
  Cert.PlainDot.dotGeneral_apply (M := 100000) (K := 128) (N := 128) (φ₁ := .f32) (φ₂ := .f32) none .single x W p q

/-- The input layer at (p, q). -/
theorem lin0_apply (x : S100000x16.Idx → EReal) (W : S16x128.Idx → EReal) (b : S128.Idx → EReal) (p : Fin 100000) (q : Fin 128) :
    Stage.lin0 (F := Ideal) x W b (ix2 p q) = Cert.Gcn.lk ((∑ k : Fin 16, x (ix2 p k) * W (ix2 k q)) + b (ix1 q)) := by
  have hd : Host.dotGeneral (F := Ideal) (φ₁ := .f32) (φ₂ := .f32) dot_S100000x16_S16x128_S100000x128_1_0_0_1_n_n none x W (ix2 p q)
      = ∑ k : Fin 16, x (ix2 p k) * W (ix2 k q) :=
    Cert.PlainDot.dotGeneral_apply (M := 100000) (K := 16) (N := 128) (φ₁ := .f32) (φ₂ := .f32) none .single x W p q
  unfold Stage.lin0 Stage.leaky Cert.Gcn.lk
  rw [select_apply, cmpf_apply, mulf_apply, addf_apply, hd, bias_apply]
  rfl

/-- A convolution layer at (p, q): the aggregate there plus the bias of column q. -/
theorem conv_apply (x : S100000x128.Idx → EReal) (W : S128x128.Idx → EReal) (b : S128.Idx → EReal)
    (s d : S900000.Idx → BitVec 32) (p : Fin 100000) (q : Fin 128) :
    Stage.conv (F := Ideal) x W b s d (ix2 p q)
      = Stage.agg (F := Ideal) (Host.dotGeneral (F := Ideal) (φ₁ := .f32) (φ₂ := .f32) dot_S100000x128_S128x128_S100000x128_1_0_0_1_n_n none x W) s d (ix2 p q)
          + b (ix1 q) := by
  unfold Stage.conv
  rw [addf_apply, bias_apply]

/-- The output layer at (p, q). -/
theorem head_apply (x : S100000x128.Idx → EReal) (W : S128x3.Idx → EReal) (b : S3.Idx → EReal) (p : Fin 100000) (q : Fin 3) :
    Stage.head (F := Ideal) x W b (ix2 p q) = (∑ k : Fin 128, x (ix2 p k) * W (ix2 k q)) + b (ix1 q) := by
  have hd : Host.dotGeneral (F := Ideal) (φ₁ := .f32) (φ₂ := .f32) dot_S100000x128_S128x3_S100000x3_1_0_0_1_n_n none x W (ix2 p q)
      = ∑ k : Fin 128, x (ix2 p k) * W (ix2 k q) :=
    Cert.PlainDot.dotGeneral_apply (M := 100000) (K := 128) (N := 3) (φ₁ := .f32) (φ₂ := .f32) none .single x W p q
  unfold Stage.head
  rw [addf_apply, hd]
  exact congrArg _ (Cert.RowBias.hostRows_apply b bcast_S3_S1x3_1 bcast_S1x3_S100000x3_0_1 p q)

end Cert.ReferenceIdeal.Layers

end
-- ==== Proof.KernelValue.lean ====
/-
  The kernel program's result is the reference's network of its argument arrays, on the extended reals.

  Layer by layer. The first region's output is the reference's input layer: at (p, q) both are
  lk (Σ_k x[p,k]·W_in[k,q] + b_in[q]). The second region's output is the product of that with W1. The host's
  aggregation is the same function of the same operands in both programs (the narrow storage format of the gathered
  rows is the identity on extended reals), so the first aggregate is the reference's. The third region adds the bias b1
  and multiplies by W2, which is the reference's second product applied to its first convolution layer; the second
  aggregate follows in the same way; the fourth region adds b2, multiplies by W_out and adds b_out: the reference's
  output layer applied to its second convolution layer. Sums are compared term by term; no law of the extended reals
  beyond congruence is used.
-/
import proofs.«151104_j3298534884297_1_alg».proof.Proof.KernelBoundary
import proofs.«151104_j3298534884297_1_alg».proof.Proof.Region01
import proofs.«151104_j3298534884297_1_alg».proof.Proof.Region23
import proofs.«151104_j3298534884297_1_alg».proof.Proof.RefLayers
import proofs.«151104_j3298534884297_1_alg».proof.Proof.LibRowBias

set_option maxRecDepth 16384

noncomputable section

open scoped BigOperators

namespace Cert.Bridge

open Cert.KernelIdeal Cert.KernelIdeal.Gen Cert.KernelIdeal.Hand Cert.KernelIdeal.RegionValue
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## The argument arrays at literal types, and the reference's stages of them -/

abbrev aFeat : S100000x16.Idx → EReal := m ((c : Thread nD τ).loc main_arg0)
abbrev aEdges : S2x800000.Idx → BitVec 32 := m ((c : Thread nD τ).loc main_arg1)
abbrev aWin : S16x128.Idx → EReal := m ((c : Thread nD τ).loc main_arg3)
abbrev aBin : S128.Idx → EReal := m ((c : Thread nD τ).loc main_arg4)
abbrev aW1 : S128x128.Idx → EReal := m ((c : Thread nD τ).loc main_arg5)
abbrev aB1 : S128.Idx → EReal := m ((c : Thread nD τ).loc main_arg6)
abbrev aW2 : S128x128.Idx → EReal := m ((c : Thread nD τ).loc main_arg7)
abbrev aB2 : S128.Idx → EReal := m ((c : Thread nD τ).loc main_arg8)
abbrev aWout : S128x3.Idx → EReal := m ((c : Thread nD τ).loc main_arg9)
abbrev aBout : S3.Idx → EReal := m ((c : Thread nD τ).loc main_arg10)

/-- The reference's sources and targets with the self loops. -/
abbrev rSrc : S900000.Idx → BitVec 32 := Cert.ReferenceIdeal.Stage.src (F := Ideal) (aEdges m c)
abbrev rDst : S900000.Idx → BitVec 32 := Cert.ReferenceIdeal.Stage.dst (F := Ideal) (aEdges m c)
/-- The reference's product with a [128,128] matrix. -/
abbrev rDot (x : S100000x128.Idx → EReal) (W : S128x128.Idx → EReal) : S100000x128.Idx → EReal :=
  Host.dotGeneral (F := Ideal) (φ₁ := .f32) (φ₂ := .f32) Cert.ReferenceIdeal.dot_S100000x128_S128x128_S100000x128_1_0_0_1_n_n none x W
/-- The reference's aggregation over this edge list. -/
abbrev rAgg (h : S100000x128.Idx → EReal) : S100000x128.Idx → EReal := Cert.ReferenceIdeal.Stage.agg (F := Ideal) h (rSrc m c) (rDst m c)
/-- The reference's input layer, its two convolution layers. -/
abbrev rX0 : S100000x128.Idx → EReal := Cert.ReferenceIdeal.Stage.lin0 (F := Ideal) (aFeat m c) (aWin m c) (aBin m c)
abbrev rX1 : S100000x128.Idx → EReal := Cert.ReferenceIdeal.Stage.conv (F := Ideal) (rX0 m c) (aW1 m c) (aB1 m c) (rSrc m c) (rDst m c)
abbrev rX2 : S100000x128.Idx → EReal := Cert.ReferenceIdeal.Stage.conv (F := Ideal) (rX1 m c) (aW2 m c) (aB2 m c) (rSrc m c) (rDst m c)

/-! ## Small facts -/

/-- A 128-entry bias as a one-row matrix holds the vector in its row. -/
theorem row128_apply (b : S128.Idx → EReal) (k : Fin 128) : Stage.row128 (F := Ideal) b (ix2 (0 : Fin 1) k) = b (ix1 k) :=
  Cert.RowBias.ofVec_apply b _ k

/-- The same for the 3-entry output bias. -/
theorem row3_apply (b : S3.Idx → EReal) (k : Fin 3) : Stage.row3 (F := Ideal) b (ix2 (0 : Fin 1) k) = b (ix1 k) :=
  Cert.RowBias.ofVec_apply b _ k

/-- The kernel program's aggregation of a hidden array is the reference's: the same scatter of the same gathered
    rows times the same weights, over the same list. -/
theorem agg_eq (h : S100000x128.Idx → EReal) :
    Stage.agg (F := Ideal) h (Stage.src (aEdges m c)) (Stage.dst (aEdges m c))
        (Stage.normCol (Stage.src (aEdges m c)) (Stage.dst (aEdges m c))) = rAgg m c h := rfl

/-! ## The four regions' outputs -/

/-- The first region's output is the reference's input layer. -/
theorem hidden0 : out0 (V1 m ρ) c = rX0 m c := by
  funext i
  obtain ⟨p, q, rfl⟩ : ∃ (p : Fin 100000) (q : Fin 128), i = ix2 p q := ⟨i 0, i 1, eq_ix2 i⟩
  have hf : feat (V1 m ρ) c = aFeat m c := entry0_feat m ρ c
  have hw : wIn (V1 m ρ) c = aWin m c := entry0_w m ρ c
  have hb : bIn (V1 m ρ) c = Stage.row128 (F := Ideal) (aBin m c) := entry0_bias m ρ c
  rw [region0 (V1 m ρ) c p q, hf, hw, hb, row128_apply]
  exact (Cert.ReferenceIdeal.Layers.lin0_apply (aFeat m c) (aWin m c) (aBin m c) p q).symm

/-- The second region's output is the reference's first product. -/
theorem hidden1 : out1 (V2 m ρ) c = rDot (rX0 m c) (aW1 m c) := by
  funext i
  obtain ⟨p, q, rfl⟩ : ∃ (p : Fin 100000) (q : Fin 128), i = ix2 p q := ⟨i 0, i 1, eq_ix2 i⟩
  have hx : x0 (V2 m ρ) c = rX0 m c := (entry1_x m ρ c).trans (hidden0 m ρ c)
  have hw : w1 (V2 m ρ) c = aW1 m c := entry1_w m ρ c
  rw [region1 (V2 m ρ) c p q, hx, hw]
  exact (Cert.ReferenceIdeal.Layers.dot128_apply (rX0 m c) (aW1 m c) p q).symm

/-- The first aggregate is the reference's. -/
theorem aggregate1 : agg1 (V4 m ρ) c = rAgg m c (rDot (rX0 m c) (aW1 m c)) := by
  have h : agg1 (V4 m ρ) c = Stage.agg (F := Ideal) (out1 (V2 m ρ) c) (Stage.src (aEdges m c)) (Stage.dst (aEdges m c))
      (Stage.normCol (Stage.src (aEdges m c)) (Stage.dst (aEdges m c))) := entry2_agg m ρ c
  rw [h, hidden1 m ρ c]
  exact agg_eq m c _

/-- The third region's output is the reference's second product, of its first convolution layer. -/
theorem hidden2 : out2 (V4 m ρ) c = rDot (rX1 m c) (aW2 m c) := by
  funext i
  obtain ⟨p, q, rfl⟩ : ∃ (p : Fin 100000) (q : Fin 128), i = ix2 p q := ⟨i 0, i 1, eq_ix2 i⟩
  have hb : b1 (V4 m ρ) c = Stage.row128 (F := Ideal) (aB1 m c) := entry2_bias m ρ c
  have hw : w2 (V4 m ρ) c = aW2 m c := entry2_w m ρ c
  rw [region2 (V4 m ρ) c p q, aggregate1 m ρ c, hb, hw]
  refine Eq.trans ?_ (Cert.ReferenceIdeal.Layers.dot128_apply (rX1 m c) (aW2 m c) p q).symm
  refine Finset.sum_congr rfl fun k _ => ?_
  rw [row128_apply]
  exact congrArg (· * aW2 m c (ix2 k q)) (Cert.ReferenceIdeal.Layers.conv_apply (rX0 m c) (aW1 m c) (aB1 m c) (rSrc m c) (rDst m c) p k).symm

/-- The second aggregate is the reference's. -/
theorem aggregate2 : agg2 (V6 m ρ) c = rAgg m c (rDot (rX1 m c) (aW2 m c)) := by
  have h : agg2 (V6 m ρ) c = Stage.agg (F := Ideal) (out2 (V4 m ρ) c) (Stage.src (aEdges m c)) (Stage.dst (aEdges m c))
      (Stage.normCol (Stage.src (aEdges m c)) (Stage.dst (aEdges m c))) := entry3_agg m ρ c
  rw [h, hidden2 m ρ c]
  exact agg_eq m c _

/-- The fourth region's output is the reference's output layer, of its second convolution layer. -/
theorem output : out3 (V6 m ρ) c = Cert.ReferenceIdeal.Stage.head (F := Ideal) (rX2 m c) (aWout m c) (aBout m c) := by
  funext i
  obtain ⟨p, q, rfl⟩ : ∃ (p : Fin 100000) (q : Fin 3), i = ix2 p q := ⟨i 0, i 1, eq_ix2 i⟩
  have hb : b2 (V6 m ρ) c = Stage.row128 (F := Ideal) (aB2 m c) := entry3_bias m ρ c
  have hw : wOut (V6 m ρ) c = aWout m c := entry3_w m ρ c
  have ho : bOut (V6 m ρ) c = Stage.row3 (F := Ideal) (aBout m c) := entry3_outBias m ρ c
  rw [region3 (V6 m ρ) c p q, aggregate2 m ρ c, hb, hw, ho, row3_apply]
  refine Eq.trans ?_ (Cert.ReferenceIdeal.Layers.head_apply (rX2 m c) (aWout m c) (aBout m c) p q).symm
  refine congrArg (· + aBout m c (ix1 q)) (Finset.sum_congr rfl fun k _ => ?_)
  rw [row128_apply]
  exact congrArg (· * aWout m c (ix2 k q)) (Cert.ReferenceIdeal.Layers.conv_apply (rX1 m c) (aW2 m c) (aB2 m c) (rSrc m c) (rDst m c) p k).symm

/-- The result buffer at the end of the kernel program's run: the reference's network of the argument arrays. -/
theorem result : W7 m ρ c (Proc.devRef .tc main_v63)
    = Cert.ReferenceIdeal.Stage.out (F := Ideal) (m ((c : Thread nD τ).loc main_arg0)) (m ((c : Thread nD τ).loc main_arg1)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) :=
  (result_eq m ρ c).trans (output m ρ c)

end Cert.Bridge

end
-- ==== Proof.RefOps.lean ====
/-
  The reference's @main as five consecutive lists of its host operations, the call of the leaky rectifier replaced
  by the seven operations of its body (and of the select it calls) over the call's own buffers. The lists are cut
  before every concatenate, so that each concatenate reads buffers a list finds at its entry. For each list: every
  operation touches TensorCore buffers only, determines its results, and writes one buffer of a known list, so a
  buffer off that list keeps its contents. Then: @main is the five lists run in order, and every weakly fair run
  ends with each buffer at the lists' fold over the launch contents.
-/
import proofs.«151104_j3298534884297_1_alg».proof.ReferenceIdeal
import Idealize.ShloMosaic.Lib.StableHlo.Run

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F] [Facts]

/-- A property of two lists' members is one of their concatenation's. -/
theorem forall_append {α : Type} {p : α → Prop} {l₁ l₂ : List α} (h₁ : l₁.Forall p) (h₂ : l₂.Forall p) :
    (l₁ ++ l₂).Forall p :=
  List.forall_iff_forall_mem.2 fun a ha =>
    (List.mem_append.1 ha).elim (List.forall_iff_forall_mem.1 h₁ a) (List.forall_iff_forall_mem.1 h₂ a)

/-- The fold over two lists in a row is the second's fold after the first's. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

/-- A one-buffer write set lies in a list's image as soon as its reference is on the list. -/
theorem sub_of_mem {W : List (Ref sig .tc)} {y : Ref sig .tc} (hy : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem hy))

/-- The input layer: the dense product, the bias, the leaky rectifier (its seven operations in place of the call), and the two rows of the edge list. -/
abbrev c1 : List (HloOp τ sig (Elt F)) :=
  [ StableHlo.binary main_arg0 main_arg3 main_v0 ((fun l r => Host.dotGeneral dot_S100000x16_S16x128_S100000x128_1_0_0_1_n_n none l r) : (⟨S100000x16, .f32⟩ : BufTy).Contents (Elt F) → (⟨S16x128, .f32⟩ : BufTy).Contents (Elt F) → (⟨S100000x128, .f32⟩ : BufTy).Contents (Elt F)),
    StableHlo.unary main_arg4 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S100000x128 ![0, 1] bcast_S1x128_S100000x128_0_1 : (⟨S1x128, .f32⟩ : BufTy).Contents (Elt F) → (⟨S100000x128, .f32⟩ : BufTy).Contents (Elt F)),
    StableHlo.binary main_v0 main_v2 main_v3 (addf : (⟨S100000x128, .f32⟩ : BufTy).Contents (Elt F) → (⟨S100000x128, .f32⟩ : BufTy).Contents (Elt F) → (⟨S100000x128, .f32⟩ : BufTy).Contents (Elt F)),
    StableHlo.nullary main_cst (constant S_ .f32 0x3C23D70A#32),
    StableHlo.TRef.nullary main_call0.cst (constant (F := F) S_ .f32 0x00000000#32),
    StableHlo.TRef.unary main_call0.cst main_call0.v0 (broadcastInDim S100000x128 ![] bcast_S_S100000x128),
    StableHlo.TRef.binary (.of main_v3) main_call0.v0 main_call0.v1 (cmpf .oge),
    StableHlo.TRef.unary (.of main_cst) main_call0.v2 id,
    StableHlo.TRef.unary main_call0.v2 main_call0.v3 (broadcastInDim S100000x128 ![] bcast_S_S100000x128),
    StableHlo.TRef.binary main_call0.v3 (.of main_v3) main_call0.v4 mulf,
    StableHlo.TRef.ternary main_call0.v1 (.of main_v3) main_call0.v4 main_call0.call0.v0 select,
    StableHlo.unary main_arg1 main_v5 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v5 main_v6 rfl shapeCasts_S1x800000_S800000,
    StableHlo.unary main_arg1 main_v7 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v7 main_v8 rfl shapeCasts_S1x800000_S800000 ]

theorem c1_sub : (c1 : List (HloOp τ sig (Elt F))).Forall fun op => op.bufs ⊆ tcRefs τ sig :=
  ⟨binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub .., unary_bufs_sub .., reshape_bufs_sub ..⟩

theorem c1_fresh : (c1 : List (HloOp τ sig (Elt F))).Forall fun op => op.fresh = ∅ :=
  ⟨rfl, rfl, rfl, rfl, rfl, rfl, rfl, rfl, rfl, rfl, rfl, rfl, rfl, rfl, rfl, rfl⟩

/-- The buffers the operations of `c1` write, in order. -/
abbrev c1_W : List (Ref sig .tc) := [main_v0, main_v1, main_v2, main_v3, main_cst, main_call0_cst, main_call0_v0, main_call0_v1, main_call0_v2, main_call0_v3, main_call0_v4, main_v4, main_v5, main_v6, main_v7, main_v8]

theorem c1_writes : (c1 : List (HloOp τ sig (Elt F))).Forall fun op => op.writes ⊆ ((c1_W).map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- A buffer `c1` does not write keeps its contents. -/
theorem c1_keep {r : Ref sig .tc} (hr : r ∉ c1_W) (V : Valuation τ sig (Elt F)) :
    after c1 V (Proc.devRef .tc r) = V (Proc.devRef .tc r) :=
  after_of_writes_sub c1 V c1_writes hr

/-- The first convolution's dense product, and the node numbers 0 … N - 1. -/
abbrev c2 : List (HloOp τ sig (Elt F)) :=
  [ StableHlo.binary main_v4 main_arg5 main_v9 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_v10 (iotaInDim S100000 32 0) ]

theorem c2_sub : (c2 : List (HloOp τ sig (Elt F))).Forall fun op => op.bufs ⊆ tcRefs τ sig :=
  ⟨binary_bufs_sub .., nullary_bufs_sub ..⟩

theorem c2_fresh : (c2 : List (HloOp τ sig (Elt F))).Forall fun op => op.fresh = ∅ :=
  ⟨rfl, rfl⟩

/-- The buffers the operations of `c2` write, in order. -/
abbrev c2_W : List (Ref sig .tc) := [main_v9, main_v10]

theorem c2_writes : (c2 : List (HloOp τ sig (Elt F))).Forall fun op => op.writes ⊆ ((c2_W).map (Proc.devRef (τ := τ) .tc)).toFinset :=
  ⟨sub_of_mem (by decide), sub_of_mem (by decide)⟩

/-- A buffer `c2` does not write keeps its contents. -/
theorem c2_keep {r : Ref sig .tc} (hr : r ∉ c2_W) (V : Valuation τ sig (Elt F)) :
    after c2 V (Proc.devRef .tc r) = V (Proc.devRef .tc r) :=
  after_of_writes_sub c2 V c2_writes hr

/-- The first convolution's aggregation: the extended edge lists, the degrees, the weights, the gather, the scatter; and the first bias row. -/
abbrev c3 : List (HloOp τ sig (Elt F)) :=
  [ StableHlo.binary main_v6 main_v10 main_v11 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.binary main_v8 main_v10 main_v12 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.nullary main_cst_0 (constant S_ .f32 0x3F800000#32),
    StableHlo.unary main_cst_0 main_v13 (broadcastInDim S900000 ![] bcast_S_S900000 : (⟨S_, .f32⟩ : BufTy).Contents (Elt F) → (⟨S900000, .f32⟩ : BufTy).Contents (Elt F)),
    StableHlo.nullary main_cst_1 (constant S_ .f32 0x00000000#32),
    StableHlo.unary main_cst_1 main_v14 (broadcastInDim S100000 ![] bcast_S_S100000 : (⟨S_, .f32⟩ : BufTy).Contents (Elt F) → (⟨S100000, .f32⟩ : BufTy).Contents (Elt F)),
    StableHlo.unary main_v12 main_v15 (broadcastInDim S900000x1 ![0] bcast_S900000_S900000x1_0 : (⟨S900000, .i32⟩ : BufTy).Contents (Elt F) → (⟨S900000x1, .i32⟩ : BufTy).Contents (Elt F)),
    StableHlo.ternary main_v14 main_v15 main_v13 main_v16 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    StableHlo.nullary main_cst_2 (constant S_ .f32 0x3F800000#32),
    StableHlo.unary main_cst_2 main_v17 (broadcastInDim S100000 ![] bcast_S_S100000 : (⟨S_, .f32⟩ : BufTy).Contents (Elt F) → (⟨S100000, .f32⟩ : BufTy).Contents (Elt F)),
    StableHlo.binary main_v16 main_v17 main_v18 (maximumf : (⟨S100000, .f32⟩ : BufTy).Contents (Elt F) → (⟨S100000, .f32⟩ : BufTy).Contents (Elt F) → (⟨S100000, .f32⟩ : BufTy).Contents (Elt F)),
    StableHlo.unary main_v18 main_v19 (Host.rsqrt : (⟨S100000, .f32⟩ : BufTy).Contents (Elt F) → (⟨S100000, .f32⟩ : BufTy).Contents (Elt F)),
    StableHlo.nullary main_c (constantI S_ 32 0#32),
    StableHlo.unary main_c main_v20 (broadcastInDim S900000 ![] bcast_S_S900000 : (⟨S_, .i32⟩ : BufTy).Contents (Elt F) → (⟨S900000, .i32⟩ : BufTy).Contents (Elt F)),
    StableHlo.binary main_v11 main_v20 main_v21 (cmpi .slt : (⟨S900000, .i32⟩ : BufTy).Contents (Elt F) → (⟨S900000, .i32⟩ : BufTy).Contents (Elt F) → (⟨S900000, .i1⟩ : BufTy).Contents (Elt F)),
    StableHlo.nullary main_c_3 (constantI S_ 32 100000#32),
    StableHlo.unary main_c_3 main_v22 (broadcastInDim S900000 ![] bcast_S_S900000 : (⟨S_, .i32⟩ : BufTy).Contents (Elt F) → (⟨S900000, .i32⟩ : BufTy).Contents (Elt F)),
    StableHlo.binary main_v11 main_v22 main_v23 (addi : (⟨S900000, .i32⟩ : BufTy).Contents (Elt F) → (⟨S900000, .i32⟩ : BufTy).Contents (Elt F) → (⟨S900000, .i32⟩ : BufTy).Contents (Elt F)),
    StableHlo.ternary main_v21 main_v23 main_v11 main_v24 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v24 main_v25 (broadcastInDim S900000x1 ![0] bcast_S900000_S900000x1_0 : (⟨S900000, .i32⟩ : BufTy).Contents (Elt F) → (⟨S900000x1, .i32⟩ : BufTy).Contents (Elt F)),
    StableHlo.binary main_v19 main_v25 main_v26 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.nullary main_c_4 (constantI S_ 32 0#32),
    StableHlo.unary main_c_4 main_v27 (broadcastInDim S900000 ![] bcast_S_S900000 : (⟨S_, .i32⟩ : BufTy).Contents (Elt F) → (⟨S900000, .i32⟩ : BufTy).Contents (Elt F)),
    StableHlo.binary main_v12 main_v27 main_v28 (cmpi .slt : (⟨S900000, .i32⟩ : BufTy).Contents (Elt F) → (⟨S900000, .i32⟩ : BufTy).Contents (Elt F) → (⟨S900000, .i1⟩ : BufTy).Contents (Elt F)),
    StableHlo.nullary main_c_5 (constantI S_ 32 100000#32),
    StableHlo.unary main_c_5 main_v29 (broadcastInDim S900000 ![] bcast_S_S900000 : (⟨S_, .i32⟩ : BufTy).Contents (Elt F) → (⟨S900000, .i32⟩ : BufTy).Contents (Elt F)),
    StableHlo.binary main_v12 main_v29 main_v30 (addi : (⟨S900000, .i32⟩ : BufTy).Contents (Elt F) → (⟨S900000, .i32⟩ : BufTy).Contents (Elt F) → (⟨S900000, .i32⟩ : BufTy).Contents (Elt F)),
    StableHlo.ternary main_v28 main_v30 main_v12 main_v31 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v31 main_v32 (broadcastInDim S900000x1 ![0] bcast_S900000_S900000x1_0 : (⟨S900000, .i32⟩ : BufTy).Contents (Elt F) → (⟨S900000x1, .i32⟩ : BufTy).Contents (Elt F)),
    StableHlo.binary main_v19 main_v32 main_v33 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.binary main_v26 main_v33 main_v34 (mulf : (⟨S900000, .f32⟩ : BufTy).Contents (Elt F) → (⟨S900000, .f32⟩ : BufTy).Contents (Elt F) → (⟨S900000, .f32⟩ : BufTy).Contents (Elt F)),
    StableHlo.nullary main_c_6 (constantI S_ 32 0#32),
    StableHlo.unary main_c_6 main_v35 (broadcastInDim S900000 ![] bcast_S_S900000 : (⟨S_, .i32⟩ : BufTy).Contents (Elt F) → (⟨S900000, .i32⟩ : BufTy).Contents (Elt F)),
    StableHlo.binary main_v11 main_v35 main_v36 (cmpi .slt : (⟨S900000, .i32⟩ : BufTy).Contents (Elt F) → (⟨S900000, .i32⟩ : BufTy).Contents (Elt F) → (⟨S900000, .i1⟩ : BufTy).Contents (Elt F)),
    StableHlo.nullary main_c_7 (constantI S_ 32 100000#32),
    StableHlo.unary main_c_7 main_v37 (broadcastInDim S900000 ![] bcast_S_S900000 : (⟨S_, .i32⟩ : BufTy).Contents (Elt F) → (⟨S900000, .i32⟩ : BufTy).Contents (Elt F)),
    StableHlo.binary main_v11 main_v37 main_v38 (addi : (⟨S900000, .i32⟩ : BufTy).Contents (Elt F) → (⟨S900000, .i32⟩ : BufTy).Contents (Elt F) → (⟨S900000, .i32⟩ : BufTy).Contents (Elt F)),
    StableHlo.ternary main_v36 main_v38 main_v11 main_v39 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v39 main_v40 (broadcastInDim S900000x1 ![0] bcast_S900000_S900000x1_0 : (⟨S900000, .i32⟩ : BufTy).Contents (Elt F) → (⟨S900000x1, .i32⟩ : BufTy).Contents (Elt F)),
    StableHlo.binary main_v9 main_v40 main_v41 ((fun x i => Host.gather gather_S100000x128_S900000x1_S900000x128_1_0_n_n_0_1_1128 x i) : (⟨S100000x128, .f32⟩ : BufTy).Contents (Elt F) → (⟨S900000x1, .i32⟩ : BufTy).Contents (Elt F) → (⟨S900000x128, .f32⟩ : BufTy).Contents (Elt F)),
    StableHlo.unary main_v34 main_v42 (broadcastInDim S900000x1 ![0] bcast_S900000_S900000x1_0 : (⟨S900000, .f32⟩ : BufTy).Contents (Elt F) → (⟨S900000x1, .f32⟩ : BufTy).Contents (Elt F)),
    StableHlo.unary main_v42 main_v43 (broadcastInDim S900000x128 ![0, 1] bcast_S900000x1_S900000x128_0_1 : (⟨S900000x1, .f32⟩ : BufTy).Contents (Elt F) → (⟨S900000x128, .f32⟩ : BufTy).Contents (Elt F)),
    StableHlo.binary main_v41 main_v43 main_v44 (mulf : (⟨S900000x128, .f32⟩ : BufTy).Contents (Elt F) → (⟨S900000x128, .f32⟩ : BufTy).Contents (Elt F) → (⟨S900000x128, .f32⟩ : BufTy).Contents (Elt F)),
    StableHlo.nullary main_cst_8 (constant S_ .f32 0x00000000#32),
    StableHlo.unary main_cst_8 main_v45 (broadcastInDim S100000x128 ![] bcast_S_S100000x128 : (⟨S_, .f32⟩ : BufTy).Contents (Elt F) → (⟨S100000x128, .f32⟩ : BufTy).Contents (Elt F)),
    StableHlo.unary main_v12 main_v46 (broadcastInDim S900000x1 ![0] bcast_S900000_S900000x1_0 : (⟨S900000, .i32⟩ : BufTy).Contents (Elt F) → (⟨S900000x1, .i32⟩ : BufTy).Contents (Elt F)),
    StableHlo.ternary main_v45 main_v46 main_v44 main_v47 ((fun x i u => Host.scatterAdd scatter_S100000x128_S900000x1_S900000x128_1_0_0_1 x i u) : (⟨S100000x128, .f32⟩ : BufTy).Contents (Elt F) → (⟨S900000x1, .i32⟩ : BufTy).Contents (Elt F) → (⟨S900000x128, .f32⟩ : BufTy).Contents (Elt F) → (⟨S100000x128, .f32⟩ : BufTy).Contents (Elt F)),
    StableHlo.unary main_arg6 main_v48 (broadcastInDim S1x128 ![1] bcast_S128_S1x128_1 : (⟨S128, .f32⟩ : BufTy).Contents (Elt F) → (⟨S1x128, .f32⟩ : BufTy).Contents (Elt F)) ]

theorem c3_sub : (c3 : List (HloOp τ sig (Elt F))).Forall fun op => op.bufs ⊆ tcRefs τ sig :=
  ⟨binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub ..⟩

theorem c3_fresh : (c3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the operations of `c3` write, in order. -/
abbrev c3_W : List (Ref sig .tc) := [main_v11, main_v12, main_cst_0, main_v13, main_cst_1, main_v14, main_v15, main_v16, main_cst_2, main_v17, main_v18, main_v19, main_c, main_v20, main_v21, main_c_3, main_v22, main_v23, main_v24, main_v25, main_v26, main_c_4, main_v27, main_v28, main_c_5, main_v29, main_v30, main_v31, main_v32, main_v33, main_v34, main_c_6, main_v35, main_v36, main_c_7, main_v37, main_v38, main_v39, main_v40, main_v41, main_v42, main_v43, main_v44, main_cst_8, main_v45, main_v46, main_v47, main_v48]

theorem c3_writes : (c3 : List (HloOp τ sig (Elt F))).Forall fun op => op.writes ⊆ ((c3_W).map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- A buffer `c3` does not write keeps its contents. -/
theorem c3_keep {r : Ref sig .tc} (hr : r ∉ c3_W) (V : Valuation τ sig (Elt F)) :
    after c3 V (Proc.devRef .tc r) = V (Proc.devRef .tc r) :=
  after_of_writes_sub c3 V c3_writes hr

/-- The first convolution's bias added, the second convolution's dense product, and the node numbers again. -/
abbrev c4 : List (HloOp τ sig (Elt F)) :=
  [ StableHlo.unary main_v48 main_v49 (broadcastInDim S100000x128 ![0, 1] bcast_S1x128_S100000x128_0_1 : (⟨S1x128, .f32⟩ : BufTy).Contents (Elt F) → (⟨S100000x128, .f32⟩ : BufTy).Contents (Elt F)),
    StableHlo.binary main_v47 main_v49 main_v50 (addf : (⟨S100000x128, .f32⟩ : BufTy).Contents (Elt F) → (⟨S100000x128, .f32⟩ : BufTy).Contents (Elt F) → (⟨S100000x128, .f32⟩ : BufTy).Contents (Elt F)),
    StableHlo.binary main_v50 main_arg7 main_v51 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_v52 (iotaInDim S100000 32 0) ]

theorem c4_sub : (c4 : List (HloOp τ sig (Elt F))).Forall fun op => op.bufs ⊆ tcRefs τ sig :=
  ⟨unary_bufs_sub .., binary_bufs_sub .., binary_bufs_sub .., nullary_bufs_sub ..⟩

theorem c4_fresh : (c4 : List (HloOp τ sig (Elt F))).Forall fun op => op.fresh = ∅ :=
  ⟨rfl, rfl, rfl, rfl⟩

/-- The buffers the operations of `c4` write, in order. -/
abbrev c4_W : List (Ref sig .tc) := [main_v49, main_v50, main_v51, main_v52]

theorem c4_writes : (c4 : List (HloOp τ sig (Elt F))).Forall fun op => op.writes ⊆ ((c4_W).map (Proc.devRef (τ := τ) .tc)).toFinset :=
  ⟨sub_of_mem (by decide), sub_of_mem (by decide), sub_of_mem (by decide), sub_of_mem (by decide)⟩

/-- A buffer `c4` does not write keeps its contents. -/
theorem c4_keep {r : Ref sig .tc} (hr : r ∉ c4_W) (V : Valuation τ sig (Elt F)) :
    after c4 V (Proc.devRef .tc r) = V (Proc.devRef .tc r) :=
  after_of_writes_sub c4 V c4_writes hr

/-- The second convolution's aggregation and bias, and the output layer. -/
abbrev c5 : List (HloOp τ sig (Elt F)) :=
  [ StableHlo.binary main_v6 main_v52 main_v53 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.binary main_v8 main_v52 main_v54 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.nullary main_cst_9 (constant S_ .f32 0x3F800000#32),
    StableHlo.unary main_cst_9 main_v55 (broadcastInDim S900000 ![] bcast_S_S900000 : (⟨S_, .f32⟩ : BufTy).Contents (Elt F) → (⟨S900000, .f32⟩ : BufTy).Contents (Elt F)),
    StableHlo.nullary main_cst_10 (constant S_ .f32 0x00000000#32),
    StableHlo.unary main_cst_10 main_v56 (broadcastInDim S100000 ![] bcast_S_S100000 : (⟨S_, .f32⟩ : BufTy).Contents (Elt F) → (⟨S100000, .f32⟩ : BufTy).Contents (Elt F)),
    StableHlo.unary main_v54 main_v57 (broadcastInDim S900000x1 ![0] bcast_S900000_S900000x1_0 : (⟨S900000, .i32⟩ : BufTy).Contents (Elt F) → (⟨S900000x1, .i32⟩ : BufTy).Contents (Elt F)),
    StableHlo.ternary main_v56 main_v57 main_v55 main_v58 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    StableHlo.nullary main_cst_11 (constant S_ .f32 0x3F800000#32),
    StableHlo.unary main_cst_11 main_v59 (broadcastInDim S100000 ![] bcast_S_S100000 : (⟨S_, .f32⟩ : BufTy).Contents (Elt F) → (⟨S100000, .f32⟩ : BufTy).Contents (Elt F)),
    StableHlo.binary main_v58 main_v59 main_v60 (maximumf : (⟨S100000, .f32⟩ : BufTy).Contents (Elt F) → (⟨S100000, .f32⟩ : BufTy).Contents (Elt F) → (⟨S100000, .f32⟩ : BufTy).Contents (Elt F)),
    StableHlo.unary main_v60 main_v61 (Host.rsqrt : (⟨S100000, .f32⟩ : BufTy).Contents (Elt F) → (⟨S100000, .f32⟩ : BufTy).Contents (Elt F)),
    StableHlo.nullary main_c_12 (constantI S_ 32 0#32),
    StableHlo.unary main_c_12 main_v62 (broadcastInDim S900000 ![] bcast_S_S900000 : (⟨S_, .i32⟩ : BufTy).Contents (Elt F) → (⟨S900000, .i32⟩ : BufTy).Contents (Elt F)),
    StableHlo.binary main_v53 main_v62 main_v63 (cmpi .slt : (⟨S900000, .i32⟩ : BufTy).Contents (Elt F) → (⟨S900000, .i32⟩ : BufTy).Contents (Elt F) → (⟨S900000, .i1⟩ : BufTy).Contents (Elt F)),
    StableHlo.nullary main_c_13 (constantI S_ 32 100000#32),
    StableHlo.unary main_c_13 main_v64 (broadcastInDim S900000 ![] bcast_S_S900000 : (⟨S_, .i32⟩ : BufTy).Contents (Elt F) → (⟨S900000, .i32⟩ : BufTy).Contents (Elt F)),
    StableHlo.binary main_v53 main_v64 main_v65 (addi : (⟨S900000, .i32⟩ : BufTy).Contents (Elt F) → (⟨S900000, .i32⟩ : BufTy).Contents (Elt F) → (⟨S900000, .i32⟩ : BufTy).Contents (Elt F)),
    StableHlo.ternary main_v63 main_v65 main_v53 main_v66 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v66 main_v67 (broadcastInDim S900000x1 ![0] bcast_S900000_S900000x1_0 : (⟨S900000, .i32⟩ : BufTy).Contents (Elt F) → (⟨S900000x1, .i32⟩ : BufTy).Contents (Elt F)),
    StableHlo.binary main_v61 main_v67 main_v68 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.nullary main_c_14 (constantI S_ 32 0#32),
    StableHlo.unary main_c_14 main_v69 (broadcastInDim S900000 ![] bcast_S_S900000 : (⟨S_, .i32⟩ : BufTy).Contents (Elt F) → (⟨S900000, .i32⟩ : BufTy).Contents (Elt F)),
    StableHlo.binary main_v54 main_v69 main_v70 (cmpi .slt : (⟨S900000, .i32⟩ : BufTy).Contents (Elt F) → (⟨S900000, .i32⟩ : BufTy).Contents (Elt F) → (⟨S900000, .i1⟩ : BufTy).Contents (Elt F)),
    StableHlo.nullary main_c_15 (constantI S_ 32 100000#32),
    StableHlo.unary main_c_15 main_v71 (broadcastInDim S900000 ![] bcast_S_S900000 : (⟨S_, .i32⟩ : BufTy).Contents (Elt F) → (⟨S900000, .i32⟩ : BufTy).Contents (Elt F)),
    StableHlo.binary main_v54 main_v71 main_v72 (addi : (⟨S900000, .i32⟩ : BufTy).Contents (Elt F) → (⟨S900000, .i32⟩ : BufTy).Contents (Elt F) → (⟨S900000, .i32⟩ : BufTy).Contents (Elt F)),
    StableHlo.ternary main_v70 main_v72 main_v54 main_v73 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v73 main_v74 (broadcastInDim S900000x1 ![0] bcast_S900000_S900000x1_0 : (⟨S900000, .i32⟩ : BufTy).Contents (Elt F) → (⟨S900000x1, .i32⟩ : BufTy).Contents (Elt F)),
    StableHlo.binary main_v61 main_v74 main_v75 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.binary main_v68 main_v75 main_v76 (mulf : (⟨S900000, .f32⟩ : BufTy).Contents (Elt F) → (⟨S900000, .f32⟩ : BufTy).Contents (Elt F) → (⟨S900000, .f32⟩ : BufTy).Contents (Elt F)),
    StableHlo.nullary main_c_16 (constantI S_ 32 0#32),
    StableHlo.unary main_c_16 main_v77 (broadcastInDim S900000 ![] bcast_S_S900000 : (⟨S_, .i32⟩ : BufTy).Contents (Elt F) → (⟨S900000, .i32⟩ : BufTy).Contents (Elt F)),
    StableHlo.binary main_v53 main_v77 main_v78 (cmpi .slt : (⟨S900000, .i32⟩ : BufTy).Contents (Elt F) → (⟨S900000, .i32⟩ : BufTy).Contents (Elt F) → (⟨S900000, .i1⟩ : BufTy).Contents (Elt F)),
    StableHlo.nullary main_c_17 (constantI S_ 32 100000#32),
    StableHlo.unary main_c_17 main_v79 (broadcastInDim S900000 ![] bcast_S_S900000 : (⟨S_, .i32⟩ : BufTy).Contents (Elt F) → (⟨S900000, .i32⟩ : BufTy).Contents (Elt F)),
    StableHlo.binary main_v53 main_v79 main_v80 (addi : (⟨S900000, .i32⟩ : BufTy).Contents (Elt F) → (⟨S900000, .i32⟩ : BufTy).Contents (Elt F) → (⟨S900000, .i32⟩ : BufTy).Contents (Elt F)),
    StableHlo.ternary main_v78 main_v80 main_v53 main_v81 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v81 main_v82 (broadcastInDim S900000x1 ![0] bcast_S900000_S900000x1_0 : (⟨S900000, .i32⟩ : BufTy).Contents (Elt F) → (⟨S900000x1, .i32⟩ : BufTy).Contents (Elt F)),
    StableHlo.binary main_v51 main_v82 main_v83 ((fun x i => Host.gather gather_S100000x128_S900000x1_S900000x128_1_0_n_n_0_1_1128 x i) : (⟨S100000x128, .f32⟩ : BufTy).Contents (Elt F) → (⟨S900000x1, .i32⟩ : BufTy).Contents (Elt F) → (⟨S900000x128, .f32⟩ : BufTy).Contents (Elt F)),
    StableHlo.unary main_v76 main_v84 (broadcastInDim S900000x1 ![0] bcast_S900000_S900000x1_0 : (⟨S900000, .f32⟩ : BufTy).Contents (Elt F) → (⟨S900000x1, .f32⟩ : BufTy).Contents (Elt F)),
    StableHlo.unary main_v84 main_v85 (broadcastInDim S900000x128 ![0, 1] bcast_S900000x1_S900000x128_0_1 : (⟨S900000x1, .f32⟩ : BufTy).Contents (Elt F) → (⟨S900000x128, .f32⟩ : BufTy).Contents (Elt F)),
    StableHlo.binary main_v83 main_v85 main_v86 (mulf : (⟨S900000x128, .f32⟩ : BufTy).Contents (Elt F) → (⟨S900000x128, .f32⟩ : BufTy).Contents (Elt F) → (⟨S900000x128, .f32⟩ : BufTy).Contents (Elt F)),
    StableHlo.nullary main_cst_18 (constant S_ .f32 0x00000000#32),
    StableHlo.unary main_cst_18 main_v87 (broadcastInDim S100000x128 ![] bcast_S_S100000x128 : (⟨S_, .f32⟩ : BufTy).Contents (Elt F) → (⟨S100000x128, .f32⟩ : BufTy).Contents (Elt F)),
    StableHlo.unary main_v54 main_v88 (broadcastInDim S900000x1 ![0] bcast_S900000_S900000x1_0 : (⟨S900000, .i32⟩ : BufTy).Contents (Elt F) → (⟨S900000x1, .i32⟩ : BufTy).Contents (Elt F)),
    StableHlo.ternary main_v87 main_v88 main_v86 main_v89 ((fun x i u => Host.scatterAdd scatter_S100000x128_S900000x1_S900000x128_1_0_0_1 x i u) : (⟨S100000x128, .f32⟩ : BufTy).Contents (Elt F) → (⟨S900000x1, .i32⟩ : BufTy).Contents (Elt F) → (⟨S900000x128, .f32⟩ : BufTy).Contents (Elt F) → (⟨S100000x128, .f32⟩ : BufTy).Contents (Elt F)),
    StableHlo.unary main_arg8 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S100000x128 ![0, 1] bcast_S1x128_S100000x128_0_1 : (⟨S1x128, .f32⟩ : BufTy).Contents (Elt F) → (⟨S100000x128, .f32⟩ : BufTy).Contents (Elt F)),
    StableHlo.binary main_v89 main_v91 main_v92 (addf : (⟨S100000x128, .f32⟩ : BufTy).Contents (Elt F) → (⟨S100000x128, .f32⟩ : BufTy).Contents (Elt F) → (⟨S100000x128, .f32⟩ : BufTy).Contents (Elt F)),
    StableHlo.binary main_v92 main_arg9 main_v93 ((fun l r => Host.dotGeneral dot_S100000x128_S128x3_S100000x3_1_0_0_1_n_n none l r) : (⟨S100000x128, .f32⟩ : BufTy).Contents (Elt F) → (⟨S128x3, .f32⟩ : BufTy).Contents (Elt F) → (⟨S100000x3, .f32⟩ : BufTy).Contents (Elt F)),
    StableHlo.unary main_arg10 main_v94 (broadcastInDim S1x3 ![1] bcast_S3_S1x3_1 : (⟨S3, .f32⟩ : BufTy).Contents (Elt F) → (⟨S1x3, .f32⟩ : BufTy).Contents (Elt F)),
    StableHlo.unary main_v94 main_v95 (broadcastInDim S100000x3 ![0, 1] bcast_S1x3_S100000x3_0_1 : (⟨S1x3, .f32⟩ : BufTy).Contents (Elt F) → (⟨S100000x3, .f32⟩ : BufTy).Contents (Elt F)),
    StableHlo.binary main_v93 main_v95 main_v96 (addf : (⟨S100000x3, .f32⟩ : BufTy).Contents (Elt F) → (⟨S100000x3, .f32⟩ : BufTy).Contents (Elt F) → (⟨S100000x3, .f32⟩ : BufTy).Contents (Elt F)) ]

theorem c5_sub : (c5 : List (HloOp τ sig (Elt F))).Forall fun op => op.bufs ⊆ tcRefs τ sig :=
  ⟨binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub ..⟩

theorem c5_fresh : (c5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the operations of `c5` write, in order. -/
abbrev c5_W : List (Ref sig .tc) := [main_v53, main_v54, main_cst_9, main_v55, main_cst_10, main_v56, main_v57, main_v58, main_cst_11, main_v59, main_v60, main_v61, main_c_12, main_v62, main_v63, main_c_13, main_v64, main_v65, main_v66, main_v67, main_v68, main_c_14, main_v69, main_v70, main_c_15, main_v71, main_v72, main_v73, main_v74, main_v75, main_v76, main_c_16, main_v77, main_v78, main_c_17, main_v79, main_v80, main_v81, main_v82, main_v83, main_v84, main_v85, main_v86, main_cst_18, main_v87, main_v88, main_v89, main_v90, main_v91, main_v92, main_v93, main_v94, main_v95, main_v96]

theorem c5_writes : (c5 : List (HloOp τ sig (Elt F))).Forall fun op => op.writes ⊆ ((c5_W).map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- A buffer `c5` does not write keeps its contents. -/
theorem c5_keep {r : Ref sig .tc} (hr : r ∉ c5_W) (V : Valuation τ sig (Elt F)) :
    after c5 V (Proc.devRef .tc r) = V (Proc.devRef .tc r) :=
  after_of_writes_sub c5 V c5_writes hr

/-- @main's 124 operations, in order. -/
abbrev ops : List (HloOp τ sig (Elt F)) := (c1 ++ (c2 ++ c3)) ++ (c4 ++ c5)

-- the sixty statements of a window, one of them a call of seven, are compared with the list's sixty-six binds
set_option maxRecDepth 4096 in
/-- The first window is the first three lists: the call unfolds to its body's operations. -/
theorem main_part0_eq (c : Dev nD) : main_part0 (F := F) c = seq (c1 ++ (c2 ++ c3)) := rfl

set_option maxRecDepth 4096 in
/-- The second window is the last two lists. -/
theorem main_part1_eq (c : Dev nD) : main_part1 (F := F) c = seq (c4 ++ c5) := rfl

/-- @main is the straight line of its operations. -/
theorem main_eq (c : Dev nD) : main (F := F) c = seq ops :=
  (congrArg₂ (fun a b => a >>= fun _ => b) (main_part0_eq c) (main_part1_eq c)).trans (seq_append _ _).symm

theorem ops_sub : (ops : List (HloOp τ sig (Elt F))).Forall fun op => op.bufs ⊆ tcRefs τ sig :=
  forall_append (forall_append c1_sub (forall_append c2_sub c3_sub)) (forall_append c4_sub c5_sub)

theorem ops_fresh : (ops : List (HloOp τ sig (Elt F))).Forall fun op => op.fresh = ∅ :=
  forall_append (forall_append c1_fresh (forall_append c2_fresh c3_fresh)) (forall_append c4_fresh c5_fresh)

/-- The whole fold is the five lists' folds, one after the other. -/
theorem after_ops (V : Valuation τ sig (Elt F)) :
    after ops V = after c5 (after c4 (after c3 (after c2 (after c1 V)))) := by
  show after ((c1 ++ (c2 ++ c3)) ++ (c4 ++ c5)) V = _
  rw [after_concat, after_concat, after_concat, after_concat]

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, each TensorCore buffer at the
    fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.1 ops_fresh)

end Cert.ReferenceIdeal.Hand

end
-- ==== Proof.RefC3.lean ====
/-
  What the third list of the reference's operations leaves: from the dense product, the two rows of the edge list
  and the node numbers it finds, the first convolution's aggregation, and its bias as one row.
-/
import proofs.«151104_j3298534884297_1_alg».proof.ReferenceIdeal
import Idealize.ShloMosaic.Lib.StableHlo.Run
import proofs.«151104_j3298534884297_1_alg».proof.Proof.RefStage
import proofs.«151104_j3298534884297_1_alg».proof.Proof.RefOps

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F] [Facts]

attribute [local irreducible] Host.gather Host.scatterAdd

set_option maxRecDepth 8192 in
set_option maxHeartbeats 4000000 in
/-- After the third list: the aggregation of the product over the two extended edge lists, each a row of the edge list
    followed by the node numbers. -/
theorem c3_v47 (V : Valuation τ sig (Elt F)) :
    after c3 V (main_v47 : DevRef τ sig)
      = Stage.agg (V (main_v9 : DevRef τ sig)) (concatenate S900000 0 [⟨S800000, (V (main_v6 : DevRef τ sig))⟩, ⟨S100000, (V (main_v10 : DevRef τ sig))⟩] concatenates_S800000_S100000_S900000_d0) (concatenate S900000 0 [⟨S800000, (V (main_v8 : DevRef τ sig))⟩, ⟨S100000, (V (main_v10 : DevRef τ sig))⟩] concatenates_S800000_S100000_S900000_d0) := by
  after_results
  rfl

/-- … and the first convolution's bias as one row. -/
theorem c3_v48 (V : Valuation τ sig (Elt F)) :
    after c3 V (main_v48 : DevRef τ sig) = broadcastInDim S1x128 ![1] bcast_S128_S1x128_1 (V (main_arg6 : DevRef τ sig)) := by
  after_results

end Cert.ReferenceIdeal.Hand

end
-- ==== Proof.RefC5.lean ====
/-
  What the fifth list of the reference's operations leaves: from the second dense product, the two rows of the edge
  list and the node numbers it finds, the second convolution's aggregation with its bias, through the output layer.
-/
import proofs.«151104_j3298534884297_1_alg».proof.ReferenceIdeal
import Idealize.ShloMosaic.Lib.StableHlo.Run
import proofs.«151104_j3298534884297_1_alg».proof.Proof.RefStage
import proofs.«151104_j3298534884297_1_alg».proof.Proof.RefOps

noncomputable section

namespace Cert.ReferenceIdeal.Hand

open Cert.ReferenceIdeal Cert.ReferenceIdeal.Facts₀ Idealize.ShloMosaic Idealize.ShloMosaic.TcCoe Idealize.SL.Sem Idealize.ShloMosaic.StableHlo

variable {F : FTy → Type} [FloatOps F] [Facts]

attribute [local irreducible] Host.gather Host.scatterAdd

/-- The extended edge lists and the inverse square roots of the degrees, for the second convolution. -/
abbrev c5a : List (HloOp τ sig (Elt F)) :=
  [ StableHlo.binary main_v6 main_v52 main_v53 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.binary main_v8 main_v52 main_v54 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.nullary main_cst_9 (constant S_ .f32 0x3F800000#32),
    StableHlo.unary main_cst_9 main_v55 (broadcastInDim S900000 ![] bcast_S_S900000 : (⟨S_, .f32⟩ : BufTy).Contents (Elt F) → (⟨S900000, .f32⟩ : BufTy).Contents (Elt F)),
    StableHlo.nullary main_cst_10 (constant S_ .f32 0x00000000#32),
    StableHlo.unary main_cst_10 main_v56 (broadcastInDim S100000 ![] bcast_S_S100000 : (⟨S_, .f32⟩ : BufTy).Contents (Elt F) → (⟨S100000, .f32⟩ : BufTy).Contents (Elt F)),
    StableHlo.unary main_v54 main_v57 (broadcastInDim S900000x1 ![0] bcast_S900000_S900000x1_0 : (⟨S900000, .i32⟩ : BufTy).Contents (Elt F) → (⟨S900000x1, .i32⟩ : BufTy).Contents (Elt F)),
    StableHlo.ternary main_v56 main_v57 main_v55 main_v58 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    StableHlo.nullary main_cst_11 (constant S_ .f32 0x3F800000#32),
    StableHlo.unary main_cst_11 main_v59 (broadcastInDim S100000 ![] bcast_S_S100000 : (⟨S_, .f32⟩ : BufTy).Contents (Elt F) → (⟨S100000, .f32⟩ : BufTy).Contents (Elt F)),
    StableHlo.binary main_v58 main_v59 main_v60 (maximumf : (⟨S100000, .f32⟩ : BufTy).Contents (Elt F) → (⟨S100000, .f32⟩ : BufTy).Contents (Elt F) → (⟨S100000, .f32⟩ : BufTy).Contents (Elt F)),
    StableHlo.unary main_v60 main_v61 (Host.rsqrt : (⟨S100000, .f32⟩ : BufTy).Contents (Elt F) → (⟨S100000, .f32⟩ : BufTy).Contents (Elt F)) ]

/-- The list entries' weights, for the second convolution. -/
abbrev c5b : List (HloOp τ sig (Elt F)) :=
  [ StableHlo.nullary main_c_12 (constantI S_ 32 0#32),
    StableHlo.unary main_c_12 main_v62 (broadcastInDim S900000 ![] bcast_S_S900000 : (⟨S_, .i32⟩ : BufTy).Contents (Elt F) → (⟨S900000, .i32⟩ : BufTy).Contents (Elt F)),
    StableHlo.binary main_v53 main_v62 main_v63 (cmpi .slt : (⟨S900000, .i32⟩ : BufTy).Contents (Elt F) → (⟨S900000, .i32⟩ : BufTy).Contents (Elt F) → (⟨S900000, .i1⟩ : BufTy).Contents (Elt F)),
    StableHlo.nullary main_c_13 (constantI S_ 32 100000#32),
    StableHlo.unary main_c_13 main_v64 (broadcastInDim S900000 ![] bcast_S_S900000 : (⟨S_, .i32⟩ : BufTy).Contents (Elt F) → (⟨S900000, .i32⟩ : BufTy).Contents (Elt F)),
    StableHlo.binary main_v53 main_v64 main_v65 (addi : (⟨S900000, .i32⟩ : BufTy).Contents (Elt F) → (⟨S900000, .i32⟩ : BufTy).Contents (Elt F) → (⟨S900000, .i32⟩ : BufTy).Contents (Elt F)),
    StableHlo.ternary main_v63 main_v65 main_v53 main_v66 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v66 main_v67 (broadcastInDim S900000x1 ![0] bcast_S900000_S900000x1_0 : (⟨S900000, .i32⟩ : BufTy).Contents (Elt F) → (⟨S900000x1, .i32⟩ : BufTy).Contents (Elt F)),
    StableHlo.binary main_v61 main_v67 main_v68 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.nullary main_c_14 (constantI S_ 32 0#32),
    StableHlo.unary main_c_14 main_v69 (broadcastInDim S900000 ![] bcast_S_S900000 : (⟨S_, .i32⟩ : BufTy).Contents (Elt F) → (⟨S900000, .i32⟩ : BufTy).Contents (Elt F)),
    StableHlo.binary main_v54 main_v69 main_v70 (cmpi .slt : (⟨S900000, .i32⟩ : BufTy).Contents (Elt F) → (⟨S900000, .i32⟩ : BufTy).Contents (Elt F) → (⟨S900000, .i1⟩ : BufTy).Contents (Elt F)),
    StableHlo.nullary main_c_15 (constantI S_ 32 100000#32),
    StableHlo.unary main_c_15 main_v71 (broadcastInDim S900000 ![] bcast_S_S900000 : (⟨S_, .i32⟩ : BufTy).Contents (Elt F) → (⟨S900000, .i32⟩ : BufTy).Contents (Elt F)),
    StableHlo.binary main_v54 main_v71 main_v72 (addi : (⟨S900000, .i32⟩ : BufTy).Contents (Elt F) → (⟨S900000, .i32⟩ : BufTy).Contents (Elt F) → (⟨S900000, .i32⟩ : BufTy).Contents (Elt F)),
    StableHlo.ternary main_v70 main_v72 main_v54 main_v73 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v73 main_v74 (broadcastInDim S900000x1 ![0] bcast_S900000_S900000x1_0 : (⟨S900000, .i32⟩ : BufTy).Contents (Elt F) → (⟨S900000x1, .i32⟩ : BufTy).Contents (Elt F)),
    StableHlo.binary main_v61 main_v74 main_v75 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.binary main_v68 main_v75 main_v76 (mulf : (⟨S900000, .f32⟩ : BufTy).Contents (Elt F) → (⟨S900000, .f32⟩ : BufTy).Contents (Elt F) → (⟨S900000, .f32⟩ : BufTy).Contents (Elt F)) ]

/-- The second convolution's gather, weighting and scatter, its bias, and the output layer. -/
abbrev c5c : List (HloOp τ sig (Elt F)) :=
  [ StableHlo.nullary main_c_16 (constantI S_ 32 0#32),
    StableHlo.unary main_c_16 main_v77 (broadcastInDim S900000 ![] bcast_S_S900000 : (⟨S_, .i32⟩ : BufTy).Contents (Elt F) → (⟨S900000, .i32⟩ : BufTy).Contents (Elt F)),
    StableHlo.binary main_v53 main_v77 main_v78 (cmpi .slt : (⟨S900000, .i32⟩ : BufTy).Contents (Elt F) → (⟨S900000, .i32⟩ : BufTy).Contents (Elt F) → (⟨S900000, .i1⟩ : BufTy).Contents (Elt F)),
    StableHlo.nullary main_c_17 (constantI S_ 32 100000#32),
    StableHlo.unary main_c_17 main_v79 (broadcastInDim S900000 ![] bcast_S_S900000 : (⟨S_, .i32⟩ : BufTy).Contents (Elt F) → (⟨S900000, .i32⟩ : BufTy).Contents (Elt F)),
    StableHlo.binary main_v53 main_v79 main_v80 (addi : (⟨S900000, .i32⟩ : BufTy).Contents (Elt F) → (⟨S900000, .i32⟩ : BufTy).Contents (Elt F) → (⟨S900000, .i32⟩ : BufTy).Contents (Elt F)),
    StableHlo.ternary main_v78 main_v80 main_v53 main_v81 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v81 main_v82 (broadcastInDim S900000x1 ![0] bcast_S900000_S900000x1_0 : (⟨S900000, .i32⟩ : BufTy).Contents (Elt F) → (⟨S900000x1, .i32⟩ : BufTy).Contents (Elt F)),
    StableHlo.binary main_v51 main_v82 main_v83 ((fun x i => Host.gather gather_S100000x128_S900000x1_S900000x128_1_0_n_n_0_1_1128 x i) : (⟨S100000x128, .f32⟩ : BufTy).Contents (Elt F) → (⟨S900000x1, .i32⟩ : BufTy).Contents (Elt F) → (⟨S900000x128, .f32⟩ : BufTy).Contents (Elt F)),
    StableHlo.unary main_v76 main_v84 (broadcastInDim S900000x1 ![0] bcast_S900000_S900000x1_0 : (⟨S900000, .f32⟩ : BufTy).Contents (Elt F) → (⟨S900000x1, .f32⟩ : BufTy).Contents (Elt F)),
    StableHlo.unary main_v84 main_v85 (broadcastInDim S900000x128 ![0, 1] bcast_S900000x1_S900000x128_0_1 : (⟨S900000x1, .f32⟩ : BufTy).Contents (Elt F) → (⟨S900000x128, .f32⟩ : BufTy).Contents (Elt F)),
    StableHlo.binary main_v83 main_v85 main_v86 (mulf : (⟨S900000x128, .f32⟩ : BufTy).Contents (Elt F) → (⟨S900000x128, .f32⟩ : BufTy).Contents (Elt F) → (⟨S900000x128, .f32⟩ : BufTy).Contents (Elt F)),
    StableHlo.nullary main_cst_18 (constant S_ .f32 0x00000000#32),
    StableHlo.unary main_cst_18 main_v87 (broadcastInDim S100000x128 ![] bcast_S_S100000x128 : (⟨S_, .f32⟩ : BufTy).Contents (Elt F) → (⟨S100000x128, .f32⟩ : BufTy).Contents (Elt F)),
    StableHlo.unary main_v54 main_v88 (broadcastInDim S900000x1 ![0] bcast_S900000_S900000x1_0 : (⟨S900000, .i32⟩ : BufTy).Contents (Elt F) → (⟨S900000x1, .i32⟩ : BufTy).Contents (Elt F)),
    StableHlo.ternary main_v87 main_v88 main_v86 main_v89 ((fun x i u => Host.scatterAdd scatter_S100000x128_S900000x1_S900000x128_1_0_0_1 x i u) : (⟨S100000x128, .f32⟩ : BufTy).Contents (Elt F) → (⟨S900000x1, .i32⟩ : BufTy).Contents (Elt F) → (⟨S900000x128, .f32⟩ : BufTy).Contents (Elt F) → (⟨S100000x128, .f32⟩ : BufTy).Contents (Elt F)),
    StableHlo.unary main_arg8 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S100000x128 ![0, 1] bcast_S1x128_S100000x128_0_1 : (⟨S1x128, .f32⟩ : BufTy).Contents (Elt F) → (⟨S100000x128, .f32⟩ : BufTy).Contents (Elt F)),
    StableHlo.binary main_v89 main_v91 main_v92 (addf : (⟨S100000x128, .f32⟩ : BufTy).Contents (Elt F) → (⟨S100000x128, .f32⟩ : BufTy).Contents (Elt F) → (⟨S100000x128, .f32⟩ : BufTy).Contents (Elt F)),
    StableHlo.binary main_v92 main_arg9 main_v93 ((fun l r => Host.dotGeneral dot_S100000x128_S128x3_S100000x3_1_0_0_1_n_n none l r) : (⟨S100000x128, .f32⟩ : BufTy).Contents (Elt F) → (⟨S128x3, .f32⟩ : BufTy).Contents (Elt F) → (⟨S100000x3, .f32⟩ : BufTy).Contents (Elt F)),
    StableHlo.unary main_arg10 main_v94 (broadcastInDim S1x3 ![1] bcast_S3_S1x3_1 : (⟨S3, .f32⟩ : BufTy).Contents (Elt F) → (⟨S1x3, .f32⟩ : BufTy).Contents (Elt F)),
    StableHlo.unary main_v94 main_v95 (broadcastInDim S100000x3 ![0, 1] bcast_S1x3_S100000x3_0_1 : (⟨S1x3, .f32⟩ : BufTy).Contents (Elt F) → (⟨S100000x3, .f32⟩ : BufTy).Contents (Elt F)),
    StableHlo.binary main_v93 main_v95 main_v96 (addf : (⟨S100000x3, .f32⟩ : BufTy).Contents (Elt F) → (⟨S100000x3, .f32⟩ : BufTy).Contents (Elt F) → (⟨S100000x3, .f32⟩ : BufTy).Contents (Elt F)) ]

/-- The fifth list is these three in a row. -/
theorem c5_split : (c5 : List (HloOp τ sig (Elt F))) = c5a ++ (c5b ++ c5c) := rfl

/-- The buffers the operations of `c5a` write, in order. -/
abbrev c5a_W : List (Ref sig .tc) := [main_v53, main_v54, main_cst_9, main_v55, main_cst_10, main_v56, main_v57, main_v58, main_cst_11, main_v59, main_v60, main_v61]

theorem c5a_writes : (c5a : List (HloOp τ sig (Elt F))).Forall fun op => op.writes ⊆ ((c5a_W).map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- A buffer `c5a` does not write keeps its contents. -/
theorem c5a_keep {r : Ref sig .tc} (hr : r ∉ c5a_W) (V : Valuation τ sig (Elt F)) :
    after c5a V (Proc.devRef .tc r) = V (Proc.devRef .tc r) :=
  after_of_writes_sub c5a V c5a_writes hr

/-- The buffers the operations of `c5b` write, in order. -/
abbrev c5b_W : List (Ref sig .tc) := [main_c_12, main_v62, main_v63, main_c_13, main_v64, main_v65, main_v66, main_v67, main_v68, main_c_14, main_v69, main_v70, main_c_15, main_v71, main_v72, main_v73, main_v74, main_v75, main_v76]

theorem c5b_writes : (c5b : List (HloOp τ sig (Elt F))).Forall fun op => op.writes ⊆ ((c5b_W).map (Proc.devRef (τ := τ) .tc)).toFinset :=
  ⟨sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide), sub_of_mem (by decide)⟩

/-- A buffer `c5b` does not write keeps its contents. -/
theorem c5b_keep {r : Ref sig .tc} (hr : r ∉ c5b_W) (V : Valuation τ sig (Elt F)) :
    after c5b V (Proc.devRef .tc r) = V (Proc.devRef .tc r) :=
  after_of_writes_sub c5b V c5b_writes hr

/-- The two extended edge lists: a row of the edge list followed by the node numbers. -/
theorem c5a_v53 (V : Valuation τ sig (Elt F)) :
    after c5a V (main_v53 : DevRef τ sig) = (concatenate S900000 0 [⟨S800000, (V (main_v6 : DevRef τ sig))⟩, ⟨S100000, (V (main_v52 : DevRef τ sig))⟩] concatenates_S800000_S100000_S900000_d0) := by
  after_results

theorem c5a_v54 (V : Valuation τ sig (Elt F)) :
    after c5a V (main_v54 : DevRef τ sig) = (concatenate S900000 0 [⟨S800000, (V (main_v8 : DevRef τ sig))⟩, ⟨S100000, (V (main_v52 : DevRef τ sig))⟩] concatenates_S800000_S100000_S900000_d0) := by
  after_results

/-- The inverse square roots of the degrees counted over the extended target list. -/
theorem c5a_v61 (V : Valuation τ sig (Elt F)) :
    after c5a V (main_v61 : DevRef τ sig) = Stage.dinv (concatenate S900000 0 [⟨S800000, (V (main_v8 : DevRef τ sig))⟩, ⟨S100000, (V (main_v52 : DevRef τ sig))⟩] concatenates_S800000_S100000_S900000_d0) := by
  after_results
  rfl

set_option maxHeartbeats 4000000 in
/-- Each list entry's weight, from the inverse square roots and the two lists found at entry. -/
theorem c5b_v76 (V : Valuation τ sig (Elt F)) :
    after c5b V (main_v76 : DevRef τ sig)
      = (mulf (Host.gather gather_S100000_S900000x1_S900000_n_0_n_n_0_1_1 (V (main_v61 : DevRef τ sig)) (Stage.col (Stage.wrap (V (main_v53 : DevRef τ sig)))))
          (Host.gather gather_S100000_S900000x1_S900000_n_0_n_n_0_1_1 (V (main_v61 : DevRef τ sig)) (Stage.col (Stage.wrap (V (main_v54 : DevRef τ sig)))))) := by
  after_results
  rfl

set_option maxRecDepth 8192 in
set_option maxHeartbeats 4000000 in
/-- The aggregation with the weights found at entry, the bias, and the output layer. -/
theorem c5c_v96 (V : Valuation τ sig (Elt F)) :
    after c5c V (main_v96 : DevRef τ sig)
      = Stage.head (addf (Host.scatterAdd scatter_S100000x128_S900000x1_S900000x128_1_0_0_1 (broadcastInDim S100000x128 ![] bcast_S_S100000x128 (constant S_ .f32 0x00000000#32)) (Stage.col (V (main_v54 : DevRef τ sig)))
            (mulf (Host.gather gather_S100000x128_S900000x1_S900000x128_1_0_n_n_0_1_1128 (V (main_v51 : DevRef τ sig)) (Stage.col (Stage.wrap (V (main_v53 : DevRef τ sig)))))
              (broadcastInDim S900000x128 ![0, 1] bcast_S900000x1_S900000x128_0_1 (broadcastInDim S900000x1 ![0] bcast_S900000_S900000x1_0 (V (main_v76 : DevRef τ sig))))))
          (Stage.bias (V (main_arg8 : DevRef τ sig)))) (V (main_arg9 : DevRef τ sig)) (V (main_arg10 : DevRef τ sig)) := by
  after_results
  rfl

set_option maxRecDepth 8192 in
/-- After the fifth list: the second aggregation with its bias, through the output layer. -/
theorem c5_v96 (V : Valuation τ sig (Elt F)) :
    after c5 V (main_v96 : DevRef τ sig)
      = Stage.head (addf (Stage.agg (V (main_v51 : DevRef τ sig)) (concatenate S900000 0 [⟨S800000, (V (main_v6 : DevRef τ sig))⟩, ⟨S100000, (V (main_v52 : DevRef τ sig))⟩] concatenates_S800000_S100000_S900000_d0) (concatenate S900000 0 [⟨S800000, (V (main_v8 : DevRef τ sig))⟩, ⟨S100000, (V (main_v52 : DevRef τ sig))⟩] concatenates_S800000_S100000_S900000_d0)) (Stage.bias (V (main_arg8 : DevRef τ sig))))
          (V (main_arg9 : DevRef τ sig)) (V (main_arg10 : DevRef τ sig)) := by
  rw [c5_split, after_concat, after_concat, c5c_v96]
  rw [c5b_v76, c5b_keep (r := main_v51) (by decide), c5b_keep (r := main_v53) (by decide), c5b_keep (r := main_v54) (by decide),
    c5b_keep (r := main_arg8) (by decide), c5b_keep (r := main_arg9) (by decide),
    c5b_keep (r := main_arg10) (by decide)]
  rw [c5a_v53, c5a_v54, c5a_v61, c5a_keep (r := main_v51) (by decide), c5a_keep (r := main_arg8) (by decide),
    c5a_keep (r := main_arg9) (by decide), c5a_keep (r := main_arg10) (by decide)]
  rfl

end Cert.ReferenceIdeal.Hand

end
-- ==== Proof.RefRun.lean ====
/-
  The reference's run: every weakly fair execution of its @main terminates with the result buffer at the network of
  Proof/RefStage.lean applied to the argument arrays, and the arguments unchanged.
-/
import proofs.«151104_j3298534884297_1_alg».proof.Proof.Gen.ReferenceIdeal
import proofs.«151104_j3298534884297_1_alg».proof.Proof.RefStage
import Idealize.ShloMosaic.Lib.StableHlo.Run
import proofs.«151104_j3298534884297_1_alg».proof.Proof.RefOps
import proofs.«151104_j3298534884297_1_alg».proof.Proof.RefC3
import proofs.«151104_j3298534884297_1_alg».proof.Proof.RefC5

noncomputable section

namespace Cert.ReferenceIdeal.Hand

section Net

open Cert.ReferenceIdeal Cert.ReferenceIdeal.Facts₀ Idealize.ShloMosaic Idealize.ShloMosaic.TcCoe Idealize.SL.Sem Idealize.ShloMosaic.StableHlo

variable {F : FTy → Type} [FloatOps F] [Facts]

attribute [local irreducible] Host.gather Host.scatterAdd

/-- After the first list: the input layer's result, and the two rows of the edge list as vectors. -/
theorem c1_v4 (V : Valuation τ sig (Elt F)) :
    after c1 V (main_v4 : DevRef τ sig) = Stage.lin0 (V (main_arg0 : DevRef τ sig)) (V (main_arg3 : DevRef τ sig)) (V (main_arg4 : DevRef τ sig)) := by
  after_results
  rfl

theorem c1_v6 (V : Valuation τ sig (Elt F)) :
    after c1 V (main_v6 : DevRef τ sig) = (shapeCast S800000 (extractStridedSlice S1x800000 ![0, 0] (V (main_arg1 : DevRef τ sig)) slices_S2x800000_S1x800000_0_0) shapeCasts_S1x800000_S800000) := by
  after_results
  rfl

theorem c1_v8 (V : Valuation τ sig (Elt F)) :
    after c1 V (main_v8 : DevRef τ sig) = (shapeCast S800000 (extractStridedSlice S1x800000 ![1, 0] (V (main_arg1 : DevRef τ sig)) slices_S2x800000_S1x800000_1_0) shapeCasts_S1x800000_S800000) := by
  after_results
  rfl

/-- After the second list: the dense product of what the first left, and the node numbers. -/
theorem c2_v9 (V : Valuation τ sig (Elt F)) :
    after c2 V (main_v9 : DevRef τ sig) = (Host.dotGeneral dot_S100000x128_S128x128_S100000x128_1_0_0_1_n_n none (V (main_v4 : DevRef τ sig)) (V (main_arg5 : DevRef τ sig))) := by
  after_results

theorem c2_v10 (V : Valuation τ sig (Elt F)) :
    after c2 V (main_v10 : DevRef τ sig) = (iotaInDim S100000 32 0 : (⟨S100000, .i32⟩ : BufTy).Contents (Elt F)) := by
  after_results

/-- After the fourth list: the bias added and the second dense product, and the node numbers again. -/
theorem c4_v51 (V : Valuation τ sig (Elt F)) :
    after c4 V (main_v51 : DevRef τ sig)
      = (Host.dotGeneral dot_S100000x128_S128x128_S100000x128_1_0_0_1_n_n none (addf (V (main_v47 : DevRef τ sig)) (broadcastInDim S100000x128 ![0, 1] bcast_S1x128_S100000x128_0_1 (V (main_v48 : DevRef τ sig)))) (V (main_arg7 : DevRef τ sig))) := by
  after_results

theorem c4_v52 (V : Valuation τ sig (Elt F)) :
    after c4 V (main_v52 : DevRef τ sig) = (iotaInDim S100000 32 0 : (⟨S100000, .i32⟩ : BufTy).Contents (Elt F)) := by
  after_results

/-- The result buffer after all five lists is the network of the argument arrays: each list's results are rewritten
    into the next list's, innermost list last, and the stages' definitions unfold to the same term. -/
theorem out_eq (V : Valuation τ sig (Elt F)) :
    after ops V (main_v96 : DevRef τ sig)
      = Stage.out (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [after_ops, c5_v96]
  rw [c4_v51, c4_v52, c4_keep (r := main_v6) (by decide), c4_keep (r := main_v8) (by decide),
    c4_keep (r := main_arg8) (by decide), c4_keep (r := main_arg9) (by decide), c4_keep (r := main_arg10) (by decide)]
  rw [c3_v47, c3_v48, c3_keep (r := main_v6) (by decide), c3_keep (r := main_v8) (by decide),
    c3_keep (r := main_arg7) (by decide), c3_keep (r := main_arg8) (by decide), c3_keep (r := main_arg9) (by decide),
    c3_keep (r := main_arg10) (by decide)]
  rw [c2_v9, c2_v10, c2_keep (r := main_v6) (by decide), c2_keep (r := main_v8) (by decide),
    c2_keep (r := main_arg6) (by decide), c2_keep (r := main_arg7) (by decide), c2_keep (r := main_arg8) (by decide),
    c2_keep (r := main_arg9) (by decide), c2_keep (r := main_arg10) (by decide)]
  rw [c1_v4, c1_v6, c1_v8, c1_keep (r := main_arg5) (by decide), c1_keep (r := main_arg6) (by decide),
    c1_keep (r := main_arg7) (by decide), c1_keep (r := main_arg8) (by decide), c1_keep (r := main_arg9) (by decide),
    c1_keep (r := main_arg10) (by decide)]
  rfl

/-- No list writes an argument: it holds at the end what it held at launch. -/
theorem arg_keep {r : Ref sig .tc} (h : r ∉ c1_W ∧ r ∉ c2_W ∧ r ∉ c3_W ∧ r ∉ c4_W ∧ r ∉ c5_W)
    (V : Valuation τ sig (Elt F)) : after ops V (Proc.devRef .tc r) = V (Proc.devRef .tc r) := by
  rw [after_ops, c5_keep h.2.2.2.2, c4_keep h.2.2.2.1, c3_keep h.2.2.1, c2_keep h.2.1, c1_keep h.1]

end Net

open Cert.ReferenceIdeal Cert.ReferenceIdeal.Gen Idealize.ShloMosaic Idealize.ShloMosaic.TcCoe Idealize.SL.Sem Idealize.ShloMosaic.StableHlo

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v96) = Stage.out (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v96).trans (out_eq _),
      (h c main_arg0).trans (arg_keep (by decide) _),
      (h c main_arg1).trans (arg_keep (by decide) _),
      (h c main_arg2).trans (arg_keep (by decide) _),
      (h c main_arg3).trans (arg_keep (by decide) _),
      (h c main_arg4).trans (arg_keep (by decide) _),
      (h c main_arg5).trans (arg_keep (by decide) _),
      (h c main_arg6).trans (arg_keep (by decide) _),
      (h c main_arg7).trans (arg_keep (by decide) _),
      (h c main_arg8).trans (arg_keep (by decide) _),
      (h c main_arg9).trans (arg_keep (by decide) _),
      (h c main_arg10).trans (arg_keep (by decide) _)⟩)
    (run_after m ρ)

end Cert.ReferenceIdeal.Hand

end
-- ==== Proof.lean ====
/-
  A graph convolution network — a dense input layer with a leaky rectifier, two graph convolution layers over an edge
  list extended by self loops and weighted by the inverse square roots of the target degrees, a dense output layer —
  computed by a program whose four dense stages run as kernels over blocks of 5000 rows, with the gathers and the
  scatter-additions on the host between them, against a reference that does everything on the host.

  On the extended reals the two compute one function of the argument arrays. Each kernel region's output array is,
  entry by entry, the same sum over the contracted axis as the reference's matrix product with its bias (the blocks
  tile the rows; storing a hidden array in a narrower float format is the identity). The host operations between the
  regions — the edge list with its self loops, the degrees, the weights, each gather and scatter-addition — are the same
  operations on the same operands in both programs, so they are carried along as they stand. The frames: the two
  kernel programs' are their generated frames; the reference's is its run with the result dropped. The idealization
  rewrote no operation.
-/
import proofs.«151104_j3298534884297_1_alg».proof.Defs
import proofs.«151104_j3298534884297_1_alg».proof.Proof.Gen.Kernel
import proofs.«151104_j3298534884297_1_alg».proof.Proof.Gen.Kernel.Frame
import proofs.«151104_j3298534884297_1_alg».proof.Proof.Gen.KernelIdeal
import proofs.«151104_j3298534884297_1_alg».proof.Proof.Gen.KernelIdeal.Frame
import proofs.«151104_j3298534884297_1_alg».proof.Proof.Gen.ReferenceIdeal
import proofs.«151104_j3298534884297_1_alg».proof.Proof.Gen.Pre_finite_inputs
import proofs.«151104_j3298534884297_1_alg».proof.Proof.KernelRun
import proofs.«151104_j3298534884297_1_alg».proof.Proof.KernelValue
import proofs.«151104_j3298534884297_1_alg».proof.Proof.RefRun

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Hand.run (F := Ideal) m ρ)

/-- From memories agreeing on the arguments both programs end with the reference's network of those arguments in
    their result buffers. -/
theorem algebraic : Cert.algebraic_KernelIdeal_ReferenceIdeal := by
  intro m ρ m' ρ' _ hagree
  refine ⟨fun c => Cert.ReferenceIdeal.Stage.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.Bridge.result m ρ c), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.Hand.run (F := Ideal) m' ρ')
    obtain ⟨h0, h1, -, h3, h4, h5, h6, h7, h8, h9, h10⟩ := hagree c
    rw [h0, h1, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
